-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S192x128 : Shape := ⟨2, ![192, 128]⟩
abbrev S192x64 : Shape := ⟨2, ![192, 64]⟩
abbrev S192 : Shape := ⟨1, ![192]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x128 : S_.BroadcastsInDim S192x128 (![] : Fin 0 → Fin S192x128.rank)
  reducesTo_S192x128_S_d0_1 : S192x128.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg8 : FVec F S192 .f32) (main_arg9 : FVec F S192 .f32) (main_v33 : IVec S_ 1) : IVec S_ 1 :=
  let main_v34 : FVec F S192 .f32 := Host.absf main_arg8
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S192 .f32 := Host.absf main_arg9
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  main_v43

def fn_part1 {F : FTy → Type} [FloatOps F] (main_arg5 : FVec F S64 .f32) (main_arg6 : FVec F S192x128 .f32) (main_arg7 : FVec F S192x64 .f32) (main_arg8 : FVec F S192 .f32) (main_arg9 : FVec F S192 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S192x128 .f32 := Host.absf main_arg6
  let main_cst_8 : FVec F S_ .f32 := constant S_ .f32 0x7F800000#32
  let main_v25 : FVec F S192x128 .f32 := broadcastInDim S192x128 ![] bcast_S_S192x128 main_cst_8
  let main_v26 : IVec S192x128 1 := cmpf .olt main_v24 main_v25
  let main_c_9 : IVec S_ 1 := constantI S_ 1 1#1
  let main_v27 : IVec S_ 1 := (fun x v => Host.reduce IntOp.andi x v reducesTo_S192x128_S_d0_1 h_S_) main_v26 main_c_9
  let main_v28 : IVec S_ 1 := andi main_v23 main_v27
  let main_v29 : FVec F S192x64 .f32 := Host.absf main_arg7
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1000000 32) (main_arg2 : FVec F S1000000 .f32) (main_arg3 : FVec F S100000x64 .f32) (main_arg4 : FVec F S64x64 .f32) (main_arg5 : FVec F S64 .f32) (main_arg6 : FVec F S192x128 .f32) (main_arg7 : FVec F S192x64 .f32) (main_arg8 : FVec F S192 .f32) (main_arg9 : FVec F S192 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S192x128 : Shape := ⟨2, ![192, 128]⟩
abbrev S192x64 : Shape := ⟨2, ![192, 64]⟩
abbrev S192 : Shape := ⟨1, ![192]⟩
abbrev S1x1000000 : Shape := ⟨2, ![1, 1000000]⟩
abbrev S_ : Shape := ⟨0, ![]⟩
abbrev S100000 : Shape := ⟨1, ![100000]⟩
abbrev S1000000x1 : Shape := ⟨2, ![1000000, 1]⟩
abbrev S5000x64 : Shape := ⟨2, ![5000, 64]⟩
abbrev S1000000x64 : Shape := ⟨2, ![1000000, 64]⟩
abbrev S100000x1 : Shape := ⟨2, ![100000, 1]⟩
abbrev S128x192 : Shape := ⟨2, ![128, 192]⟩
abbrev S64x192 : Shape := ⟨2, ![64, 192]⟩
abbrev S1x64 : Shape := ⟨2, ![1, 64]⟩
abbrev S1x192 : Shape := ⟨2, ![1, 192]⟩
abbrev S5000x128 : Shape := ⟨2, ![5000, 128]⟩
abbrev S5000x192 : Shape := ⟨2, ![5000, 192]⟩

abbrev nBuf : Space → Nat
  | .hbm => 72
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S192x128, .f32⟩
  | .hbm, ⟨7, _⟩ => ⟨S192x64, .f32⟩
  | .hbm, ⟨8, _⟩ => ⟨S192, .f32⟩
  | .hbm, ⟨9, _⟩ => ⟨S192, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S100000, .f32⟩
  | .hbm, ⟨16, _⟩ => ⟨S1000000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x64, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000, .f32⟩
  | .hbm, ⟨32, _⟩ => ⟨S1000000, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000, .f32⟩
  | .hbm, ⟨42, _⟩ => ⟨S1000000, .f32⟩
  | .hbm, ⟨43, _⟩ => ⟨S1000000x1, .f32⟩
  | .hbm, ⟨44, _⟩ => ⟨S_, .i32⟩
  | .hbm, ⟨45, _⟩ => ⟨S1000000, .i32⟩
  | .hbm, ⟨46, _⟩ => ⟨S1000000, .i1⟩
  | .hbm, ⟨47, _⟩ => ⟨S_, .i32⟩
  | .hbm, ⟨48, _⟩ => ⟨S1000000, .i32⟩
  | .hbm, ⟨49, _⟩ => ⟨S1000000, .i32⟩
  | .hbm, ⟨50, _⟩ => ⟨S1000000, .i32⟩
  | .hbm, ⟨51, _⟩ => ⟨S1000000x1, .i32⟩
  | .hbm, ⟨52, _⟩ => ⟨S1000000x64, .f32⟩
  | .hbm, ⟨53, _⟩ => ⟨S1000000x64, .f32⟩
  | .hbm, ⟨54, _⟩ => ⟨S1000000x64, .f32⟩
  | .hbm, ⟨55, _⟩ => ⟨S_, .f32⟩
  | .hbm, ⟨56, _⟩ => ⟨S100000x64, .f32⟩
  | .hbm, ⟨57, _⟩ => ⟨S1000000x1, .i32⟩
  | .hbm, ⟨58, _⟩ => ⟨S100000x64, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S128x192, .f32⟩
  | .hbm, ⟨67, _⟩ => ⟨S64x192, .f32⟩
  | .hbm, ⟨68, _⟩ => ⟨S1x64, .f32⟩
  | .hbm, ⟨69, _⟩ => ⟨S1x192, .f32⟩
  | .hbm, ⟨70, _⟩ => ⟨S1x192, .f32⟩
  | .hbm, ⟨71, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S128x192, .f32⟩
  | .local _ .vmem, ⟨13, _⟩ => ⟨S64x192, .f32⟩
  | .local _ .vmem, ⟨14, _⟩ => ⟨S1x192, .f32⟩
  | .local _ .vmem, ⟨15, _⟩ => ⟨S1x192, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S1000000_S1000000x1_0 : S1000000.BroadcastsInDim S1000000x1 (![0] : Fin 1 → Fin S1000000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S192x128_S128x192_1_0 : S192x128.Transposes [1, 0] S128x192
  transposes_S192x64_S64x192_1_0 : S192x64.Transposes [1, 0] S64x192
  shapeCasts_S64_S1x64 : S64.ShapeCasts S1x64
  shapeCasts_S192_S1x192 : S192.ShapeCasts S1x192
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S5000x64_S5000x64_S5000x128_d1 : Shape.Concatenates [S5000x64, S5000x64] S5000x128 1
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  inb_S64x192_S64x192_0_0 : ∀ a, (![0, 0] : Fin 2 → Nat) a + S64x192.size a ≤ S64x192.size a
  h_S64x192 : 0 < S64x192.numel
  shapeCasts_S64x192_S64x192 : S64x192.ShapeCasts S64x192
  slices_S5000x192_o0_0_S5000x64 : S5000x192.Slices ![0, 0] S5000x64
  slices_S5000x192_o0_64_S5000x64 : S5000x192.Slices ![0, 64] S5000x64
  slices_S5000x192_o0_128_S5000x64 : S5000x192.Slices ![0, 128] S5000x64
  scatter_S100000_S1000000x1_S1000000_n_0_0_1_wf : ScatterDims.WF S100000 S1000000x1 S1000000 [] [0] [0] 1
  dot_S5000x64_S64x64_S5000x64_1_0_0_1_n_n_wf : DotDims.WF S5000x64 S64x64 S5000x64 [1] [0] [0] [1] [] []
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x128_S128x192_S5000x192_1_0_0_1_n_n_wf : DotDims.WF S5000x128 S128x192 S5000x192 [1] [0] [0] [1] [] []
  dot_S5000x64_S64x192_S5000x192_1_0_0_1_n_n_wf : DotDims.WF S5000x64 S64x192 S5000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x192.size a ≤ S128x192.size a
  hwx1_4 : ∀ i : grid1.Coords, EltTy.bits .f32 = 32 ∨ (Rect.block (s := S128x192) S128x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x192.size a ≤ S64x192.size a
  hwx1_5 : ∀ i : grid1.Coords, EltTy.bits .f32 = 32 ∨ (Rect.block (s := S64x192) S64x192.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x192.size a ≤ S1x192.size a
  hwx1_6 : ∀ i : grid1.Coords, EltTy.bits .f32 = 32 ∨ (Rect.block (s := S1x192) S1x192.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x192.size a ≤ S1x192.size a
  hwx1_7 : ∀ i : grid1.Coords, EltTy.bits .f32 = 32 ∨ (Rect.block (s := S1x192) S1x192.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x128_S128x192_S5000x192_1_0_0_1_n_n : DotDims S5000x128 S128x192 S5000x192 where
  lhsContracting := [1]
  rhsContracting := [0]
  lhsNonContracting := [0]
  rhsNonContracting := [1]
  lhsBatch := []
  rhsBatch := []
  wf := dot_S5000x128_S128x192_S5000x192_1_0_0_1_n_n_wf
def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S128x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S64x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x192.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S1x192.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S192x128 : Shape := ⟨2, ![192, 128]⟩
abbrev S192x64 : Shape := ⟨2, ![192, 64]⟩
abbrev S192 : Shape := ⟨1, ![192]⟩
abbrev S1x1000000 : Shape := ⟨2, ![1, 1000000]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩
abbrev S100000x128 : Shape := ⟨2, ![100000, 128]⟩
abbrev S128x192 : Shape := ⟨2, ![128, 192]⟩
abbrev S100000x192 : Shape := ⟨2, ![100000, 192]⟩
abbrev S1x192 : Shape := ⟨2, ![1, 192]⟩
abbrev S64x192 : Shape := ⟨2, ![64, 192]⟩

abbrev nBuf : Space → Nat
  | .hbm => 121
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S192x128, .f32⟩
  | .hbm, ⟨7, _⟩ => ⟨S192x64, .f32⟩
  | .hbm, ⟨8, _⟩ => ⟨S192, .f32⟩
  | .hbm, ⟨9, _⟩ => ⟨S192, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S100000, .f32⟩
  | .hbm, ⟨16, _⟩ => ⟨S1000000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x64, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000, .f32⟩
  | .hbm, ⟨32, _⟩ => ⟨S1000000, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000, .f32⟩
  | .hbm, ⟨42, _⟩ => ⟨S1000000, .f32⟩
  | .hbm, ⟨43, _⟩ => ⟨S1000000x1, .f32⟩
  | .hbm, ⟨44, _⟩ => ⟨S_, .i32⟩
  | .hbm, ⟨45, _⟩ => ⟨S1000000, .i32⟩
  | .hbm, ⟨46, _⟩ => ⟨S1000000, .i1⟩
  | .hbm, ⟨47, _⟩ => ⟨S_, .i32⟩
  | .hbm, ⟨48, _⟩ => ⟨S1000000, .i32⟩
  | .hbm, ⟨49, _⟩ => ⟨S1000000, .i32⟩
  | .hbm, ⟨50, _⟩ => ⟨S1000000, .i32⟩
  | .hbm, ⟨51, _⟩ => ⟨S1000000x1, .i32⟩
  | .hbm, ⟨52, _⟩ => ⟨S1000000x64, .f32⟩
  | .hbm, ⟨53, _⟩ => ⟨S1000000x64, .f32⟩
  | .hbm, ⟨54, _⟩ => ⟨S1000000x64, .f32⟩
  | .hbm, ⟨55, _⟩ => ⟨S_, .f32⟩
  | .hbm, ⟨56, _⟩ => ⟨S100000x64, .f32⟩
  | .hbm, ⟨57, _⟩ => ⟨S1000000x1, .i32⟩
  | .hbm, ⟨58, _⟩ => ⟨S100000x64, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S100000x128, .f32⟩
  | .hbm, ⟨78, _⟩ => ⟨S128x192, .f32⟩
  | .hbm, ⟨79, _⟩ => ⟨S100000x192, .f32⟩
  | .hbm, ⟨80, _⟩ => ⟨S1x192, .f32⟩
  | .hbm, ⟨81, _⟩ => ⟨S100000x192, .f32⟩
  | .hbm, ⟨82, _⟩ => ⟨S100000x192, .f32⟩
  | .hbm, ⟨83, _⟩ => ⟨S64x192, .f32⟩
  | .hbm, ⟨84, _⟩ => ⟨S100000x192, .f32⟩
  | .hbm, ⟨85, _⟩ => ⟨S1x192, .f32⟩
  | .hbm, ⟨86, _⟩ => ⟨S100000x192, .f32⟩
  | .hbm, ⟨87, _⟩ => ⟨S100000x192, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000x64, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S_, .f32⟩
  | .hbm, ⟨107, _⟩ => ⟨S100000x64, .f32⟩
  | .hbm, ⟨108, _⟩ => ⟨S100000x64, .f32⟩
  | .hbm, ⟨109, _⟩ => ⟨S_, .f32⟩
  | .hbm, ⟨110, _⟩ => ⟨S100000x64, .f32⟩
  | .hbm, ⟨111, _⟩ => ⟨S100000x64, .f32⟩
  | .hbm, ⟨112, _⟩ => ⟨S100000x64, .f32⟩
  | .hbm, ⟨113, _⟩ => ⟨S100000x64, .f32⟩
  | .hbm, ⟨114, _⟩ => ⟨S100000x64, .f32⟩
  | .hbm, ⟨115, _⟩ => ⟨S_, .f32⟩
  | .hbm, ⟨116, _⟩ => ⟨S100000x64, .f32⟩
  | .hbm, ⟨117, _⟩ => ⟨S100000x64, .f32⟩
  | .hbm, ⟨118, _⟩ => ⟨S100000x64, .f32⟩
  | .hbm, ⟨119, _⟩ => ⟨S100000x64, .f32⟩
  | .hbm, ⟨120, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_10 : Ref sig .tc := ⟨.hbm, 97, rfl⟩
abbrev main_v75 : Ref sig .tc := ⟨.hbm, 98, rfl⟩
abbrev main_v76 : Ref sig .tc := ⟨.hbm, 99, rfl⟩
abbrev main_cst_11 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_12 : Ref sig .tc := ⟨.hbm, 106, rfl⟩
abbrev main_v82 : Ref sig .tc := ⟨.hbm, 107, rfl⟩
abbrev main_v83 : Ref sig .tc := ⟨.hbm, 108, rfl⟩
abbrev main_cst_13 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_14 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  transposes_S192x128_S128x192_1_0 : S192x128.Transposes [1, 0] S128x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  transposes_S192x64_S64x192_1_0 : S192x64.Transposes [1, 0] S64x192
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x128_S128x192_S100000x192_1_0_0_1_n_n_wf : DotDims.WF S100000x128 S128x192 S100000x192 [1] [0] [0] [1] [] []
  dot_S100000x64_S64x192_S100000x192_1_0_0_1_n_n_wf : DotDims.WF S100000x64 S64x192 S100000x192 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x128_S128x192_S100000x192_1_0_0_1_n_n : DotDims S100000x128 S128x192 S100000x192 where
  lhsContracting := [1]
  rhsContracting := [0]
  lhsNonContracting := [0]
  rhsNonContracting := [1]
  lhsBatch := []
  rhsBatch := []
  wf := dot_S100000x128_S128x192_S100000x192_1_0_0_1_n_n_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf

class Facts : Prop extends Facts₀ where

variable [Facts]
-- ==== Proof.Spec.lean ====
/-
  What both programs compute, entry by entry, on the extended reals.

  A node's new state depends on ONE row of each node array: row `n` of the features `x`, of the aggregated
  messages `agg` and of the old state `h`. With `s = σ(agg + b)` the gated message and `[x, s]` the 128 joined
  inputs, the two affine gate vectors of the row are `gi = [x, s]·Wih + bih` and `gh = h·Whh + bhh` (192 columns:
  reset, update, candidate, 64 each), and column `j` of the result is
  `(1 − z)·tanh(gi₂ + r·gh₂) + z·h` with `r = σ(gi₀ + gh₀)`, `z = σ(gi₁ + gh₁)`.
  The logistic function is written as the quotient `1 / (1 + e^(−t))`, `1` being the float pattern of one; it is the
  library's `Ideal.logistic` (`sig_eq_logistic`).
  The projected features are the plain matrix product `x·W` (`proj`).
-/
import Idealize.ShloMosaic.PureOps.Ideal
import Idealize.ShloMosaic.Lib.ValueIdx

noncomputable section

namespace Cert.GcnGru

open Idealize.ShloMosaic Idealize.ShloMosaic.ValueIdx

/-- The float pattern of `1.0`, read on the extended reals. -/
abbrev one : EReal := Ideal.ofBits .f32 0x3F800000#32

/-- The pattern `0x3F800000` denotes the real number one. -/
theorem one_eq : one = 1 := by
  show Ideal.ofBits .f32 0x3F800000#32 = 1
  simp [Ideal.ofBits, Ideal.ieee, -EReal.coe_mul]; norm_num

/-- The logistic function as the quotient `1 / (1 + e^(−t))`. -/
def sig (t : EReal) : EReal := Ideal.div one (one + Ideal.exp (-t))

/-- The quotient form is the library's logistic function: the same expression once `one` is read as `1`. -/
theorem sig_eq_logistic (t : EReal) : sig t = Ideal.logistic t := by
  unfold sig Ideal.logistic
  rw [one_eq]

/-- Columns `j`, `64 + j`, `128 + j` of a 192-column gate vector: the reset, update and candidate parts. -/
abbrev c0 (j : Fin 64) : Fin 192 := ⟨j.val, by have := j.isLt; omega⟩
abbrev c1 (j : Fin 64) : Fin 192 := ⟨64 + j.val, by have := j.isLt; omega⟩
abbrev c2 (j : Fin 64) : Fin 192 := ⟨128 + j.val, by have := j.isLt; omega⟩

/-- Two rows of 64 joined into one of 128: the first 64 entries from `a`, the last 64 from `b`. -/
def catRow (a b : Fin 64 → EReal) : Fin 128 → EReal := fun k =>
  if h : k.val < 64 then a ⟨k.val, h⟩ else b ⟨k.val - 64, by have := k.isLt; omega⟩

/-- The input-side gate vector of a row: `[x, σ(agg + b)]·Wih + bih`, column `c`. -/
def gateI (xr ar b : Fin 64 → EReal) (wih : Fin 128 → Fin 192 → EReal) (bih : Fin 192 → EReal) (c : Fin 192) : EReal :=
  (∑ k : Fin 128, catRow xr (fun k => sig (ar k + b k)) k * wih k c) + bih c

/-- The state-side gate vector of a row: `h·Whh + bhh`, column `c`. -/
def gateH (hr : Fin 64 → EReal) (whh : Fin 64 → Fin 192 → EReal) (bhh : Fin 192 → EReal) (c : Fin 192) : EReal :=
  (∑ k : Fin 64, hr k * whh k c) + bhh c

/-- The gated update at column `j` from the two gate vectors and the old state's row. -/
def gruOut (gi gh : Fin 192 → EReal) (hr : Fin 64 → EReal) (j : Fin 64) : EReal :=
  (one - sig (gi (c1 j) + gh (c1 j))) * Ideal.tanh (gi (c2 j) + sig (gi (c0 j) + gh (c0 j)) * gh (c2 j))
    + sig (gi (c1 j) + gh (c1 j)) * hr j

/-- Column `j` of a node's new state from its three rows and the weights. -/
def gruRow (xr ar hr b : Fin 64 → EReal) (wih : Fin 128 → Fin 192 → EReal) (whh : Fin 64 → Fin 192 → EReal)
    (bih bhh : Fin 192 → EReal) (j : Fin 64) : EReal :=
  gruOut (gateI xr ar b wih bih) (gateH hr whh bhh) hr j

/-- The projected features: the matrix product `x·W`, entry `(n, j)`. -/
def proj (x : (⟨2, ![100000, 64]⟩ : Shape).Idx → EReal) (W : (⟨2, ![64, 64]⟩ : Shape).Idx → EReal) :
    (⟨2, ![100000, 64]⟩ : Shape).Idx → EReal :=
  fun i => ∑ k : Fin 64, x (ix2 (i 0) k) * W (ix2 k (i 1))

/-- Every node's new state: `gruRow` of the node's rows, the weights given as the kernel's second call takes them
    (`Wih`, `Whh` transposed to 128×192 and 64×192). -/
def gruAll (x agg h : (⟨2, ![100000, 64]⟩ : Shape).Idx → EReal) (b : (⟨1, ![64]⟩ : Shape).Idx → EReal)
    (wihT : (⟨2, ![128, 192]⟩ : Shape).Idx → EReal) (whhT : (⟨2, ![64, 192]⟩ : Shape).Idx → EReal)
    (bih bhh : (⟨1, ![192]⟩ : Shape).Idx → EReal) : (⟨2, ![100000, 64]⟩ : Shape).Idx → EReal :=
  fun i => gruRow (fun k => x (ix2 (i 0) k)) (fun k => agg (ix2 (i 0) k)) (fun k => h (ix2 (i 0) k)) (fun k => b (ix1 k))
    (fun k c => wihT (ix2 k c)) (fun k c => whhT (ix2 k c)) (fun c => bih (ix1 c)) (fun c => bhh (ix1 c)) (i 1)

/-- The same with the three bias vectors given as one-row matrices, as the kernel's second call holds them. -/
def gruAllK (x agg h : (⟨2, ![100000, 64]⟩ : Shape).Idx → EReal) (b : (⟨2, ![1, 64]⟩ : Shape).Idx → EReal)
    (wihT : (⟨2, ![128, 192]⟩ : Shape).Idx → EReal) (whhT : (⟨2, ![64, 192]⟩ : Shape).Idx → EReal)
    (bih bhh : (⟨2, ![1, 192]⟩ : Shape).Idx → EReal) : (⟨2, ![100000, 64]⟩ : Shape).Idx → EReal :=
  fun i => gruRow (fun k => x (ix2 (i 0) k)) (fun k => agg (ix2 (i 0) k)) (fun k => h (ix2 (i 0) k))
    (fun k => b (ix2 (0 : Fin 1) k)) (fun k c => wihT (ix2 k c)) (fun k c => whhT (ix2 k c))
    (fun c => bih (ix2 (0 : Fin 1) c)) (fun c => bhh (ix2 (0 : Fin 1) c)) (i 1)

end Cert.GcnGru

end
-- ==== Proof.Region0.lean ====
import proofs.«179903_j77197742178345_1_alg».proof.Proof.Gen.KernelIdeal.Frame
import proofs.«179903_j77197742178345_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The first call's body at an entry: a row of the feature block times a column of the weights -/

theorem hz : (![0, 0] : Fin 2 → Nat) = fun _ => 0 := funext fun a => by fin_cases a <;> rfl

/-- The product's left operand is read at the output's row and the contraction coordinate; -/
theorem lhs_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
/-- its right operand at the contraction coordinate and the output's column. -/
theorem rhs_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000×64 by 64×64 product accumulated from zero, entry `(p, q)`: the sum over the 64 contracted coordinates of the
    left operand's row `p` times the right operand's column `q`. -/
theorem product_apply (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun ax => Fin.ext (by
    match ax with
    | ⟨0, _⟩ => exact lhs_0 _ _
    | ⟨1, _⟩ => exact (lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun ax => Fin.ext (by
    match ax with
    | ⟨0, _⟩ => exact (rhs_0 _ _).trans hk
    | ⟨1, _⟩ => exact rhs_1 _ _)
  rw [el, er]

/-- What the first call's body leaves in its output block, entry `(p, q)`: row `p` of the feature block times column
    `q` of the weight matrix (the two roundings to a narrower format are the identity on the extended reals). -/
theorem block_apply (x0 : Vec Ideal S5000x64 .f32) (x1 : Vec Ideal S64x64 .f32) (p : Fin 5000) (q : Fin 64) :
    out0_2 (F := Ideal) x0 x1 (ix2 p q) = ∑ k : Fin 64, x0 (ix2 p k) * x1 (ix2 k q) := by
  unfold out0_2
  rw [View.canon_unit_zero hz]
  simp only [View.ld_unit_zero (S := S5000x64) hz, View.ld_unit_zero (S := S64x64) hz]
  unfold k0_pay1
  exact product_apply _ _ p q

variable (V : (c : Dev nD) → (b : Ref sig .tc) → Buf (Elt Ideal) ((c : Thread nD τ).loc b))

/-! ## From the blocks to the array: block `t` of the output is rows `5000 t … 5000 t + 4999` of `x·W` -/

/-- The printed index maps over the 20 grid points: the feature and output windows move down one block of rows per
    point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `5000 t …` of the feature array. -/
theorem xblk_apply (c : Dev nD) (t : Fin cfg0.N) (y : S5000x64.Idx) (k : S100000x64.Idx)
    (hk0 : (k 0).val = 5000 * t.val + (y 0).val) (hk1 : (k 1).val = (y 1).val) :
    (iblk0 V c 0 t : Vec Ideal S5000x64 .f32) y = (V c main_arg0 : S100000x64.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (k 0).val; rw [e0, hk0]; omega
  | ⟨1, _⟩ => show win0_0.index t 1 * 64 + 1 * (y 1).val = (k 1).val; rw [e1, hk1]; omega

/-- The weight window's block at every point is the whole weight matrix. -/
theorem wblk_apply (c : Dev nD) (t : Fin cfg0.N) (y : S64x64.Idx) :
    (iblk0 V c 1 t : Vec Ideal S64x64 .f32) y = (V c main_arg4 : S64x64.Idx → EReal) y := by
  obtain ⟨-, -, e0, e1, -⟩ := idx_facts t
  unfold iblk0
  rw [View.read_apply]
  show V c main_arg4 _ = V c main_arg4 _
  congr 1
  funext a
  apply Fin.ext
  match a with
  | ⟨0, _⟩ => show win0_1.index t 0 * 64 + 1 * (y 0).val = (y 0).val; rw [e0]; omega
  | ⟨1, _⟩ => show win0_1.index t 1 * 64 + 1 * (y 1).val = (y 1).val; rw [e1]; omega

/-- What point `t` writes back is block `t` of `x·W` of the arrays the call found. -/
theorem flushed_eq (c : Dev nD) (t : Fin cfg0.N) :
    (dat0 (F := Ideal) V c).flushed 2 t
      = ((cfg0.win 2).blk t).view.read (Elt Ideal) (Cert.GcnGru.proj (V c main_arg0) (V c main_arg4)) := by
  show (cfg0.win 2).cut (grid0.coords t) ((dat0 V c).after 2 t) = _
  rw [after0_2]
  obtain ⟨-, -, -, -, e0, e1⟩ := idx_facts t
  funext j
  obtain ⟨p, q, rfl⟩ : ∃ (p : Fin 5000) (q : Fin 64), j = ix2 p q := ⟨j 0, j 1, eq_ix2 j⟩
  rw [View.read_apply]
  show out0_2 (iblk0 V c 0 t) (iblk0 V c 1 t) (ix2 p q) = _
  refine (block_apply _ _ p q).trans ?_
  unfold Cert.GcnGru.proj
  refine Finset.sum_congr rfl fun k _ => ?_
  congr 1
  · refine xblk_apply V c t (ix2 p k) _ ?_ rfl
    show win0_2.index t 0 * 5000 + 1 * p.val = 5000 * t.val + p.val
    rw [e0]; omega
  · refine (wblk_apply V c t (ix2 k q)).trans ?_
    congr 1
    funext a
    apply Fin.ext
    match a with
    | ⟨0, _⟩ => rfl
    | ⟨1, _⟩ => show q.val = win0_2.index t 1 * 64 + 1 * q.val; rw [e1]; omega

/-- An entry of the output array lies in point `t`'s block iff each coordinate is in the block's range. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v10).slice (win0_2.rect t)).set ↔ _
  rw [View.set_slice_whole, Rect.mem_set_unit]
  exact Iff.rfl

/-- Every entry of the output array is in the block of the point its row falls to: row `r` is written at point `r / 5000`. -/
theorem cover (i : S100000x64.Idx) :
    ∃ t : Fin cfg0.N, (cfg0.win 2).flush t = true ∧ i ∈ ((cfg0.win 2).blk t).view.set := by
  have h0 : (i 0).val < 100000 := (i 0).isLt
  have h1 : (i 1).val < 64 := (i 1).isLt
  have hN : cfg0.N = 20 := N_0
  let t : Fin cfg0.N := ⟨(i 0).val / 5000, by rw [hN]; omega⟩
  obtain ⟨-, -, -, -, e0, e1⟩ := idx_facts t
  refine ⟨t, flush0_2 t, ?_⟩
  rw [mem_blk]
  have ht : t.val = (i 0).val / 5000 := rfl
  intro a
  match a with
  | ⟨0, _⟩ => show win0_2.index t 0 * 5000 ≤ (i 0).val ∧ (i 0).val < win0_2.index t 0 * 5000 + 5000; rw [e0, ht]; omega
  | ⟨1, _⟩ => show win0_2.index t 1 * 64 ≤ (i 1).val ∧ (i 1).val < win0_2.index t 1 * 64 + 64; rw [e1]; omega

/-- After the first call its output array holds the projected features `x·W` of the arrays it found. -/
theorem final0 (c : Dev nD) :
    (dat0 (F := Ideal) V c).arrAt 2 cfg0.N = Cert.GcnGru.proj (V c main_arg0) (V c main_arg4) :=
  (dat0 (F := Ideal) V c).arrAt_eq_of_cover 2 (Cert.GcnGru.proj (V c main_arg0) (V c main_arg4))
    (fun t _ => flushed_eq V c t) cover

end Cert.KernelIdeal.Region0

end
-- ==== Proof.Region1Pay.lean ====
import proofs.«179903_j77197742178345_1_alg».proof.Proof.Gen.KernelIdeal.Frame
import proofs.«179903_j77197742178345_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two products' operand indices

Both products contract the left operand's axis 1 with the right operand's axis 0 and have no batch axes, so output
entry `(p, c)` pairs the left operand's entry `(p, k)` with the right operand's entry `(k, c)`. The four coordinate
facts below say so for each record, one coordinate at a time. -/

/-- Input-side product: the left index keeps the output's row. -/
private theorem dotI_lhs_row (i : S5000x192.Idx) (q : dot_S5000x128_S128x192_S5000x192_1_0_0_1_n_n.contr.Idx) :
    (dot_S5000x128_S128x192_S5000x192_1_0_0_1_n_n.lhsIdx i q 0).val = (i 0).val := by
  unfold DotDims.lhsIdx
  rw [dif_neg (show ¬(0 : Fin S5000x128.rank) ∈ dot_S5000x128_S128x192_S5000x192_1_0_0_1_n_n.lhsBatch by decide),
    dif_pos (show (0 : Fin S5000x128.rank) ∈ dot_S5000x128_S128x192_S5000x192_1_0_0_1_n_n.lhsNonContracting by decide)]
  rfl

/-- Input-side product: the left index's column is the contracted coordinate. -/
private theorem dotI_lhs_col (i : S5000x192.Idx) (q : dot_S5000x128_S128x192_S5000x192_1_0_0_1_n_n.contr.Idx) :
    (dot_S5000x128_S128x192_S5000x192_1_0_0_1_n_n.lhsIdx i q 1).val = (q ⟨0, by decide⟩).val :=
  dot_S5000x128_S128x192_S5000x192_1_0_0_1_n_n.lhsIdx_val_of_single rfl i q

/-- Input-side product: the right index's row is the contracted coordinate. -/
private theorem dotI_rhs_row (i : S5000x192.Idx) (q : dot_S5000x128_S128x192_S5000x192_1_0_0_1_n_n.contr.Idx) :
    (dot_S5000x128_S128x192_S5000x192_1_0_0_1_n_n.rhsIdx i q 0).val = (q ⟨0, by decide⟩).val :=
  dot_S5000x128_S128x192_S5000x192_1_0_0_1_n_n.rhsIdx_val_of_single rfl i q

/-- Input-side product: the right index keeps the output's column. -/
private theorem dotI_rhs_col (i : S5000x192.Idx) (q : dot_S5000x128_S128x192_S5000x192_1_0_0_1_n_n.contr.Idx) :
    (dot_S5000x128_S128x192_S5000x192_1_0_0_1_n_n.rhsIdx i q 1).val = (i 1).val := by
  unfold DotDims.rhsIdx
  rw [dif_neg (show ¬(1 : Fin S128x192.rank) ∈ dot_S5000x128_S128x192_S5000x192_1_0_0_1_n_n.rhsBatch by decide),
    dif_pos (show (1 : Fin S128x192.rank) ∈ dot_S5000x128_S128x192_S5000x192_1_0_0_1_n_n.rhsNonContracting by decide)]
  rfl

/-- State-side product: the left index keeps the output's row. -/
private theorem dotH_lhs_row (i : S5000x192.Idx) (q : dot_S5000x64_S64x192_S5000x192_1_0_0_1_n_n.contr.Idx) :
    (dot_S5000x64_S64x192_S5000x192_1_0_0_1_n_n.lhsIdx i q 0).val = (i 0).val := by
  unfold DotDims.lhsIdx
  rw [dif_neg (show ¬(0 : Fin S5000x64.rank) ∈ dot_S5000x64_S64x192_S5000x192_1_0_0_1_n_n.lhsBatch by decide),
    dif_pos (show (0 : Fin S5000x64.rank) ∈ dot_S5000x64_S64x192_S5000x192_1_0_0_1_n_n.lhsNonContracting by decide)]
  rfl

/-- State-side product: the left index's column is the contracted coordinate. -/
private theorem dotH_lhs_col (i : S5000x192.Idx) (q : dot_S5000x64_S64x192_S5000x192_1_0_0_1_n_n.contr.Idx) :
    (dot_S5000x64_S64x192_S5000x192_1_0_0_1_n_n.lhsIdx i q 1).val = (q ⟨0, by decide⟩).val :=
  dot_S5000x64_S64x192_S5000x192_1_0_0_1_n_n.lhsIdx_val_of_single rfl i q

/-- State-side product: the right index's row is the contracted coordinate. -/
private theorem dotH_rhs_row (i : S5000x192.Idx) (q : dot_S5000x64_S64x192_S5000x192_1_0_0_1_n_n.contr.Idx) :
    (dot_S5000x64_S64x192_S5000x192_1_0_0_1_n_n.rhsIdx i q 0).val = (q ⟨0, by decide⟩).val :=
  dot_S5000x64_S64x192_S5000x192_1_0_0_1_n_n.rhsIdx_val_of_single rfl i q

/-- State-side product: the right index keeps the output's column. -/
private theorem dotH_rhs_col (i : S5000x192.Idx) (q : dot_S5000x64_S64x192_S5000x192_1_0_0_1_n_n.contr.Idx) :
    (dot_S5000x64_S64x192_S5000x192_1_0_0_1_n_n.rhsIdx i q 1).val = (i 1).val := by
  unfold DotDims.rhsIdx
  rw [dif_neg (show ¬(1 : Fin S64x192.rank) ∈ dot_S5000x64_S64x192_S5000x192_1_0_0_1_n_n.rhsBatch by decide),
    dif_pos (show (1 : Fin S64x192.rank) ∈ dot_S5000x64_S64x192_S5000x192_1_0_0_1_n_n.rhsNonContracting by decide)]
  rfl

/-! ## The two products at an entry -/

/-- The input-side product into the zero accumulator, entry `(p, c)`: row `p` of the left operand against column `c`
    of the right one, summed over the 128 joined inputs. -/
private theorem matI_apply (A : FVec Ideal S5000x128 .bf16) (B : FVec Ideal S128x192 .bf16) (p : Fin 5000) (c : Fin 192) :
    FloatOps.matmul dot_S5000x128_S128x192_S5000x192_1_0_0_1_n_n none A B (constant (F := Ideal) S5000x192 .f32 0x00000000#32) (ix2 p c)
      = ∑ k : Fin 128, A (ix2 p k) * B (ix2 k c) := by
  rw [Ideal.matmul_constant_zero_apply,
    ← Equiv.sum_comp (ValueIdx.contrEquiv1 dot_S5000x128_S128x192_S5000x192_1_0_0_1_n_n 128 rfl rfl).symm]
  refine Finset.sum_congr rfl fun k _ => ?_
  have hk := ValueIdx.contrEquiv1_symm_val dot_S5000x128_S128x192_S5000x192_1_0_0_1_n_n 128 rfl rfl k
  have el : dot_S5000x128_S128x192_S5000x192_1_0_0_1_n_n.lhsIdx (ix2 p c)
      ((ValueIdx.contrEquiv1 dot_S5000x128_S128x192_S5000x192_1_0_0_1_n_n 128 rfl rfl).symm k) = ix2 p k :=
    funext fun a => Fin.ext (by
      match a with
      | ⟨0, _⟩ => exact dotI_lhs_row _ _
      | ⟨1, _⟩ => exact (dotI_lhs_col _ _).trans hk)
  have er : dot_S5000x128_S128x192_S5000x192_1_0_0_1_n_n.rhsIdx (ix2 p c)
      ((ValueIdx.contrEquiv1 dot_S5000x128_S128x192_S5000x192_1_0_0_1_n_n 128 rfl rfl).symm k) = ix2 k c :=
    funext fun a => Fin.ext (by
      match a with
      | ⟨0, _⟩ => exact (dotI_rhs_row _ _).trans hk
      | ⟨1, _⟩ => exact dotI_rhs_col _ _)
  rw [el, er]

/-- The state-side product into the zero accumulator, entry `(p, c)`: row `p` of the old state against column `c` of
    the weights, summed over the 64 state entries. -/
private theorem matH_apply (A : FVec Ideal S5000x64 .bf16) (B : FVec Ideal S64x192 .bf16) (p : Fin 5000) (c : Fin 192) :
    FloatOps.matmul dot_S5000x64_S64x192_S5000x192_1_0_0_1_n_n none A B (constant (F := Ideal) S5000x192 .f32 0x00000000#32) (ix2 p c)
      = ∑ k : Fin 64, A (ix2 p k) * B (ix2 k c) := by
  rw [Ideal.matmul_constant_zero_apply,
    ← Equiv.sum_comp (ValueIdx.contrEquiv1 dot_S5000x64_S64x192_S5000x192_1_0_0_1_n_n 64 rfl rfl).symm]
  refine Finset.sum_congr rfl fun k _ => ?_
  have hk := ValueIdx.contrEquiv1_symm_val dot_S5000x64_S64x192_S5000x192_1_0_0_1_n_n 64 rfl rfl k
  have el : dot_S5000x64_S64x192_S5000x192_1_0_0_1_n_n.lhsIdx (ix2 p c)
      ((ValueIdx.contrEquiv1 dot_S5000x64_S64x192_S5000x192_1_0_0_1_n_n 64 rfl rfl).symm k) = ix2 p k :=
    funext fun a => Fin.ext (by
      match a with
      | ⟨0, _⟩ => exact dotH_lhs_row _ _
      | ⟨1, _⟩ => exact (dotH_lhs_col _ _).trans hk)
  have er : dot_S5000x64_S64x192_S5000x192_1_0_0_1_n_n.rhsIdx (ix2 p c)
      ((ValueIdx.contrEquiv1 dot_S5000x64_S64x192_S5000x192_1_0_0_1_n_n 64 rfl rfl).symm k) = ix2 k c :=
    funext fun a => Fin.ext (by
      match a with
      | ⟨0, _⟩ => exact (dotH_rhs_row _ _).trans hk
      | ⟨1, _⟩ => exact dotH_rhs_col _ _)
  rw [el, er]

/-! ## The pieces of the input-side gate vector -/

/-- The gated message, entry `(p, j)`: the logistic function of the aggregated message plus the bias, the bias being
    one row repeated down the block. -/
private theorem gated_apply (v1 : FVec Ideal S5000x64 .f32) (v4 : FVec Ideal S1x64 .f32) (p : Fin 5000) (j : Fin 64) :
    logistic (addf v1 (broadcastTo S5000x64 v4 broadcasts_S1x64_S5000x64)) (ix2 p j)
      = Cert.GcnGru.sig (v1 (ix2 p j) + v4 (ix2 (0 : Fin 1) j)) := by
  rw [Cert.GcnGru.sig_eq_logistic]
  show Ideal.logistic (v1 (ix2 p j) + broadcastTo S5000x64 v4 broadcasts_S1x64_S5000x64 (ix2 p j)) = _
  rw [broadcastTo_1b_ab_apply]

/-- Two 64-column blocks joined along the columns, entry `(p, k)`: row `p` of the first block while `k < 64`, of the
    second block at `k - 64` from there on; that is the joined row of the two rows. -/
private theorem joined_apply (a b : FVec Ideal S5000x64 .f32) (p : Fin 5000) (k : Fin 128) :
    concatenate S5000x128 1 [⟨S5000x64, a⟩, ⟨S5000x64, b⟩] concatenates_S5000x64_S5000x64_S5000x128_d1 (ix2 p k)
      = Cert.GcnGru.catRow (fun j => a (ix2 p j)) (fun j => b (ix2 p j)) k := by
  unfold Cert.GcnGru.catRow
  by_cases hk : k.val < 64
  · rw [dif_pos hk]
    exact concatenate_pair_apply_left (1 : Fin S5000x128.rank) a b _ (ix2 p k) rfl (ix2 p ⟨k.val, hk⟩)
      (fun ax => by
        match ax with
        | ⟨0, _⟩ => rfl
        | ⟨1, _⟩ => rfl)
  · rw [dif_neg hk]
    exact concatenate_pair_apply_right (1 : Fin S5000x128.rank) a b _ (ix2 p k) rfl rfl
      (ix2 p ⟨k.val - 64, by have := k.isLt; omega⟩)
      (fun ax hax => by
        match ax, hax with
        | ⟨0, _⟩, _ => rfl
        | ⟨1, _⟩, hax => exact absurd rfl hax)
      (by show (k.val - 64) + 64 = k.val; omega)

/-! ## The two gate vectors -/

/-- The input-side gate vector of the block, entry `(p, c)`: the joined row `[x, σ(agg + b)]` of node `p` against
    column `c` of the weights, plus the bias (one row repeated down the block). -/
private theorem pay2_apply (v0 v1 : Vec Ideal S5000x64 .f32) (v4 : Vec Ideal S1x64 .f32) (v11 : Vec Ideal S128x192 .f32)
    (v15 : Vec Ideal S1x192 .f32) (p : Fin 5000) (c : Fin 192) :
    k1_pay2 (F := Ideal) v0 v1 v4 v11 v15 (ix2 p c)
      = Cert.GcnGru.gateI (fun k => v0 (ix2 p k)) (fun k => v1 (ix2 p k)) (fun k => v4 (ix2 (0 : Fin 1) k))
          (fun k c => v11 (ix2 k c)) (fun c => v15 (ix2 (0 : Fin 1) c)) c := by
  unfold k1_pay2 Cert.GcnGru.gateI
  simp only [matmul, shapeCast_self]
  refine (addf_apply _ _ _).trans ?_
  refine congrArg₂ (· + ·) ((matI_apply _ _ p c).trans ?_) (broadcastTo_1b_ab_apply _ _ p c)
  refine Finset.sum_congr rfl fun k _ => ?_
  refine congrArg (· * v11 (ix2 k c)) ?_
  refine (joined_apply _ _ p k).trans ?_
  refine congrArg (fun r => Cert.GcnGru.catRow (fun j => v0 (ix2 p j)) r k) ?_
  exact funext fun j => (gated_apply _ _ p j).trans (by rw [shapeCast_self, shapeCast_self])

/-- The state-side gate vector of the block, entry `(p, c)`: row `p` of the old state against column `c` of the
    weights, plus the bias. -/
private theorem pay3_apply (v3 : Vec Ideal S5000x64 .f32) (v20 : Vec Ideal S64x192 .f32) (v24 : Vec Ideal S1x192 .f32)
    (p : Fin 5000) (c : Fin 192) :
    k1_pay3 (F := Ideal) v3 v20 v24 (ix2 p c)
      = Cert.GcnGru.gateH (fun k => v3 (ix2 p k)) (fun k c => v20 (ix2 k c)) (fun c => v24 (ix2 (0 : Fin 1) c)) c := by
  unfold k1_pay3 Cert.GcnGru.gateH
  simp only [matmul, shapeCast_self]
  refine (addf_apply _ _ _).trans ?_
  exact congrArg₂ (· + ·) (matH_apply _ _ p c) (broadcastTo_1b_ab_apply _ _ p c)

/-- A 64-column band of the input-side gate vector starting at column `o`, entry `(p, q)`: the gate vector of row `p`
    at column `o + q`. -/
private theorem bandI_apply (o : Nat) (h : S5000x192.Slices ![0, o] S5000x64) (v0 v1 : Vec Ideal S5000x64 .f32)
    (v4 : Vec Ideal S1x64 .f32) (v11 : Vec Ideal S128x192 .f32) (v15 : Vec Ideal S1x192 .f32) (p : Fin 5000) (q : Fin 64)
    (k : Fin 192) (hk : k.val = o + q.val) :
    extractStridedSlice S5000x64 ![0, o] (k1_pay2 (F := Ideal) v0 v1 v4 v11 v15) h (ix2 p q)
      = Cert.GcnGru.gateI (fun k => v0 (ix2 p k)) (fun k => v1 (ix2 p k)) (fun k => v4 (ix2 (0 : Fin 1) k))
          (fun k c => v11 (ix2 k c)) (fun c => v15 (ix2 (0 : Fin 1) c)) k :=
  (slice2_axis1_apply o _ h p q k hk).trans (pay2_apply v0 v1 v4 v11 v15 p k)

/-- The same band of the state-side gate vector. -/
private theorem bandH_apply (o : Nat) (h : S5000x192.Slices ![0, o] S5000x64) (v3 : Vec Ideal S5000x64 .f32)
    (v20 : Vec Ideal S64x192 .f32) (v24 : Vec Ideal S1x192 .f32) (p : Fin 5000) (q : Fin 64)
    (k : Fin 192) (hk : k.val = o + q.val) :
    extractStridedSlice S5000x64 ![0, o] (k1_pay3 (F := Ideal) v3 v20 v24) h (ix2 p q)
      = Cert.GcnGru.gateH (fun k => v3 (ix2 p k)) (fun k c => v20 (ix2 k c)) (fun c => v24 (ix2 (0 : Fin 1) c)) k :=
  (slice2_axis1_apply o _ h p q k hk).trans (pay3_apply v3 v20 v24 p k)

/-! ## The two gates and the candidate -/

/-- The update gate of the block, entry `(p, q)`: the logistic function of the two gate vectors' entries in the middle
    band (columns `64 + q`). -/
private theorem pay4_apply (v0 v1 v3 : Vec Ideal S5000x64 .f32) (v4 : Vec Ideal S1x64 .f32) (v11 : Vec Ideal S128x192 .f32)
    (v15 : Vec Ideal S1x192 .f32) (v20 : Vec Ideal S64x192 .f32) (v24 : Vec Ideal S1x192 .f32) (p : Fin 5000) (q : Fin 64) :
    k1_pay4 (F := Ideal) v0 v1 v3 v4 v11 v15 v20 v24 (ix2 p q)
      = Cert.GcnGru.sig
          (Cert.GcnGru.gateI (fun k => v0 (ix2 p k)) (fun k => v1 (ix2 p k)) (fun k => v4 (ix2 (0 : Fin 1) k))
              (fun k c => v11 (ix2 k c)) (fun c => v15 (ix2 (0 : Fin 1) c)) (Cert.GcnGru.c1 q)
            + Cert.GcnGru.gateH (fun k => v3 (ix2 p k)) (fun k c => v20 (ix2 k c)) (fun c => v24 (ix2 (0 : Fin 1) c))
                (Cert.GcnGru.c1 q)) := by
  unfold k1_pay4
  refine Eq.trans ?_ (Cert.GcnGru.sig_eq_logistic _).symm
  exact congrArg Ideal.logistic (congrArg₂ (· + ·)
    (bandI_apply 64 _ v0 v1 v4 v11 v15 p q (Cert.GcnGru.c1 q) rfl)
    (bandH_apply 64 _ v3 v20 v24 p q (Cert.GcnGru.c1 q) rfl))

/-- The candidate state of the block, entry `(p, q)`: the hyperbolic tangent of the input side's last band plus the
    reset gate (the logistic function of the first bands) times the state side's last band. -/
private theorem pay5_apply (v0 v1 v3 : Vec Ideal S5000x64 .f32) (v4 : Vec Ideal S1x64 .f32) (v11 : Vec Ideal S128x192 .f32)
    (v15 : Vec Ideal S1x192 .f32) (v20 : Vec Ideal S64x192 .f32) (v24 : Vec Ideal S1x192 .f32) (p : Fin 5000) (q : Fin 64) :
    k1_pay5 (F := Ideal) v0 v1 v3 v4 v11 v15 v20 v24 (ix2 p q)
      = Ideal.tanh
          (Cert.GcnGru.gateI (fun k => v0 (ix2 p k)) (fun k => v1 (ix2 p k)) (fun k => v4 (ix2 (0 : Fin 1) k))
              (fun k c => v11 (ix2 k c)) (fun c => v15 (ix2 (0 : Fin 1) c)) (Cert.GcnGru.c2 q)
            + Cert.GcnGru.sig
                (Cert.GcnGru.gateI (fun k => v0 (ix2 p k)) (fun k => v1 (ix2 p k)) (fun k => v4 (ix2 (0 : Fin 1) k))
                    (fun k c => v11 (ix2 k c)) (fun c => v15 (ix2 (0 : Fin 1) c)) (Cert.GcnGru.c0 q)
                  + Cert.GcnGru.gateH (fun k => v3 (ix2 p k)) (fun k c => v20 (ix2 k c))
                      (fun c => v24 (ix2 (0 : Fin 1) c)) (Cert.GcnGru.c0 q))
              * Cert.GcnGru.gateH (fun k => v3 (ix2 p k)) (fun k c => v20 (ix2 k c)) (fun c => v24 (ix2 (0 : Fin 1) c))
                  (Cert.GcnGru.c2 q)) := by
  unfold k1_pay5
  refine congrArg Ideal.tanh (congrArg₂ (· + ·)
    (bandI_apply 128 _ v0 v1 v4 v11 v15 p q (Cert.GcnGru.c2 q) rfl)
    (congrArg₂ (· * ·) ?_ (bandH_apply 128 _ v3 v20 v24 p q (Cert.GcnGru.c2 q) rfl)))
  refine Eq.trans ?_ (Cert.GcnGru.sig_eq_logistic _).symm
  exact congrArg Ideal.logistic (congrArg₂ (· + ·)
    (bandI_apply 0 _ v0 v1 v4 v11 v15 p q (Cert.GcnGru.c0 q) (Nat.zero_add _).symm)
    (bandH_apply 0 _ v3 v20 v24 p q (Cert.GcnGru.c0 q) (Nat.zero_add _).symm))

/-- The blend, entry `i`: one minus the update gate times the candidate, plus the update gate times the old state. -/
private theorem pay1_apply (h : Vec Ideal S5000x64 .f32) (z n : FVec Ideal S5000x64 .f32) (i : S5000x64.Idx) :
    k1_pay1 (F := Ideal) h z n i = (Cert.GcnGru.one - z i) * n i + z i * h i := rfl

/-- What the second call's body leaves in its output block, entry `(p, q)`: the gated update of row `p` of its three
    node blocks, column `q`. -/
theorem block_apply (x0 x1 x2 : Vec Ideal S5000x64 .f32) (x3 : Vec Ideal S1x64 .f32) (x4 : Vec Ideal S128x192 .f32)
    (x5 : Vec Ideal S64x192 .f32) (x6 x7 : Vec Ideal S1x192 .f32) (p : Fin 5000) (q : Fin 64) :
    out1_8 (F := Ideal) x0 x1 x2 x3 x4 x5 x6 x7 (ix2 p q)
      = Cert.GcnGru.gruRow (fun k => x0 (ix2 p k)) (fun k => x1 (ix2 p k)) (fun k => x2 (ix2 p k))
          (fun k => x3 (ix2 (0 : Fin 1) k)) (fun k c => x4 (ix2 k c)) (fun k c => x5 (ix2 k c))
          (fun c => x6 (ix2 (0 : Fin 1) c)) (fun c => x7 (ix2 (0 : Fin 1) c)) q := by
  -- the block is stored whole and every operand is loaded whole, so the stored value is the blend of the loaded blocks
  have hz : (![0, 0] : Fin 2 → Nat) = fun _ => 0 := funext fun a => by fin_cases a <;> rfl
  unfold out1_8
  rw [View.canon_unit_zero hz]
  simp only [View.ld_unit_zero (S := S5000x64) hz, View.ld_unit_zero (S := S1x64) hz, View.ld_unit_zero (S := S128x192) hz,
    View.ld_unit_zero (S := S1x192) hz, View.ld_unit_zero (S := S64x192) hz]
  -- the blend at the entry, its gate and candidate read off row `p`
  rw [pay1_apply, pay4_apply, pay5_apply]
  rfl

end Cert.KernelIdeal.Region1

end
-- ==== Proof.Region1.lean ====
import proofs.«179903_j77197742178345_1_alg».proof.Proof.Gen.KernelIdeal.Frame
import proofs.«179903_j77197742178345_1_alg».proof.Proof.Spec
import proofs.«179903_j77197742178345_1_alg».proof.Proof.Region1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## From the blocks to the array: block `t` of the result is rows `5000 t … 5000 t + 4999` of the gated update -/

/-- The printed index maps over the 20 grid points: the three node windows and the output window move down one block
    of rows per point; the bias and weight windows stay. -/
theorem idx_facts : ∀ t : Fin cfg1.N,
      (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

/-- The feature window's block at point `t` is rows `5000 t …` of the feature array. -/
theorem xblk_apply (c : Dev nD) (t : Fin cfg1.N) (y : S5000x64.Idx) (k : S100000x64.Idx)
    (hk0 : (k 0).val = 5000 * t.val + (y 0).val) (hk1 : (k 1).val = (y 1).val) :
    (iblk1 V c 0 t : Vec Ideal S5000x64 .f32) y = (V c main_arg0 : S100000x64.Idx → EReal) k := by
  have e0 : win1_0.index t (0 : Fin 2) = t.val := ((idx_facts t).1).1
  have e1 : win1_0.index t (1 : Fin 2) = 0 := ((idx_facts t).1).2
  unfold iblk1
  rw [View.read_apply]
  show V c main_arg0 _ = V c main_arg0 _
  congr 1
  funext a
  apply Fin.ext
  match a with
  | ⟨0, _⟩ => show win1_0.index t 0 * 5000 + 1 * (y 0).val = (k 0).val; rw [e0, hk0]; omega
  | ⟨1, _⟩ => show win1_0.index t 1 * 64 + 1 * (y 1).val = (k 1).val; rw [e1, hk1]; omega

/-- The aggregated-messages window's block at point `t` is rows `5000 t …` of that array. -/
theorem ablk_apply (c : Dev nD) (t : Fin cfg1.N) (y : S5000x64.Idx) (k : S100000x64.Idx)
    (hk0 : (k 0).val = 5000 * t.val + (y 0).val) (hk1 : (k 1).val = (y 1).val) :
    (iblk1 V c 1 t : Vec Ideal S5000x64 .f32) y = (V c main_v45 : S100000x64.Idx → EReal) k := by
  have e0 : win1_1.index t (0 : Fin 2) = t.val := ((idx_facts t).2.1).1
  have e1 : win1_1.index t (1 : Fin 2) = 0 := ((idx_facts t).2.1).2
  unfold iblk1
  rw [View.read_apply]
  show V c main_v45 _ = V c main_v45 _
  congr 1
  funext a
  apply Fin.ext
  match a with
  | ⟨0, _⟩ => show win1_1.index t 0 * 5000 + 1 * (y 0).val = (k 0).val; rw [e0, hk0]; omega
  | ⟨1, _⟩ => show win1_1.index t 1 * 64 + 1 * (y 1).val = (k 1).val; rw [e1, hk1]; omega

/-- The old-state window's block at point `t` is rows `5000 t …` of the old state. -/
theorem hblk_apply (c : Dev nD) (t : Fin cfg1.N) (y : S5000x64.Idx) (k : S100000x64.Idx)
    (hk0 : (k 0).val = 5000 * t.val + (y 0).val) (hk1 : (k 1).val = (y 1).val) :
    (iblk1 V c 2 t : Vec Ideal S5000x64 .f32) y = (V c main_arg3 : S100000x64.Idx → EReal) k := by
  have e0 : win1_2.index t (0 : Fin 2) = t.val := ((idx_facts t).2.2.1).1
  have e1 : win1_2.index t (1 : Fin 2) = 0 := ((idx_facts t).2.2.1).2
  unfold iblk1
  rw [View.read_apply]
  show V c main_arg3 _ = V c main_arg3 _
  congr 1
  funext a
  apply Fin.ext
  match a with
  | ⟨0, _⟩ => show win1_2.index t 0 * 5000 + 1 * (y 0).val = (k 0).val; rw [e0, hk0]; omega
  | ⟨1, _⟩ => show win1_2.index t 1 * 64 + 1 * (y 1).val = (k 1).val; rw [e1, hk1]; omega

/-- The bias window's block at every point is the whole one-row bias. -/
theorem bblk_apply (c : Dev nD) (t : Fin cfg1.N) (y : S1x64.Idx) :
    (iblk1 V c 3 t : Vec Ideal S1x64 .f32) y = (V c main_v48 : S1x64.Idx → EReal) y := by
  have e0 : win1_3.index t (0 : Fin 2) = 0 := ((idx_facts t).2.2.2.1).1
  have e1 : win1_3.index t (1 : Fin 2) = 0 := ((idx_facts t).2.2.2.1).2
  unfold iblk1
  rw [View.read_apply]
  show V c main_v48 _ = V c main_v48 _
  congr 1
  funext a
  apply Fin.ext
  match a with
  | ⟨0, _⟩ => show win1_3.index t 0 * 1 + 1 * (y 0).val = (y 0).val; rw [e0]; omega
  | ⟨1, _⟩ => show win1_3.index t 1 * 64 + 1 * (y 1).val = (y 1).val; rw [e1]; omega

/-- The input-weight window's block at every point is the whole matrix. -/
theorem wihblk_apply (c : Dev nD) (t : Fin cfg1.N) (y : S128x192.Idx) :
    (iblk1 V c 4 t : Vec Ideal S128x192 .f32) y = (V c main_v46 : S128x192.Idx → EReal) y := by
  have e0 : win1_4.index t (0 : Fin 2) = 0 := ((idx_facts t).2.2.2.2.1).1
  have e1 : win1_4.index t (1 : Fin 2) = 0 := ((idx_facts t).2.2.2.2.1).2
  unfold iblk1
  rw [View.read_apply]
  show V c main_v46 _ = V c main_v46 _
  congr 1
  funext a
  apply Fin.ext
  match a with
  | ⟨0, _⟩ => show win1_4.index t 0 * 128 + 1 * (y 0).val = (y 0).val; rw [e0]; omega
  | ⟨1, _⟩ => show win1_4.index t 1 * 192 + 1 * (y 1).val = (y 1).val; rw [e1]; omega

/-- The state-weight window's block at every point is the whole matrix. -/
theorem whhblk_apply (c : Dev nD) (t : Fin cfg1.N) (y : S64x192.Idx) :
    (iblk1 V c 5 t : Vec Ideal S64x192 .f32) y = (V c main_v47 : S64x192.Idx → EReal) y := by
  have e0 : win1_5.index t (0 : Fin 2) = 0 := ((idx_facts t).2.2.2.2.2.1).1
  have e1 : win1_5.index t (1 : Fin 2) = 0 := ((idx_facts t).2.2.2.2.2.1).2
  unfold iblk1
  rw [View.read_apply]
  show V c main_v47 _ = V c main_v47 _
  congr 1
  funext a
  apply Fin.ext
  match a with
  | ⟨0, _⟩ => show win1_5.index t 0 * 64 + 1 * (y 0).val = (y 0).val; rw [e0]; omega
  | ⟨1, _⟩ => show win1_5.index t 1 * 192 + 1 * (y 1).val = (y 1).val; rw [e1]; omega

/-- The input-side gate bias window's block at every point is the whole one-row bias. -/
theorem bihblk_apply (c : Dev nD) (t : Fin cfg1.N) (y : S1x192.Idx) :
    (iblk1 V c 6 t : Vec Ideal S1x192 .f32) y = (V c main_v49 : S1x192.Idx → EReal) y := by
  have e0 : win1_6.index t (0 : Fin 2) = 0 := ((idx_facts t).2.2.2.2.2.2.1).1
  have e1 : win1_6.index t (1 : Fin 2) = 0 := ((idx_facts t).2.2.2.2.2.2.1).2
  unfold iblk1
  rw [View.read_apply]
  show V c main_v49 _ = V c main_v49 _
  congr 1
  funext a
  apply Fin.ext
  match a with
  | ⟨0, _⟩ => show win1_6.index t 0 * 1 + 1 * (y 0).val = (y 0).val; rw [e0]; omega
  | ⟨1, _⟩ => show win1_6.index t 1 * 192 + 1 * (y 1).val = (y 1).val; rw [e1]; omega

/-- The state-side gate bias window's block at every point is the whole one-row bias. -/
theorem bhhblk_apply (c : Dev nD) (t : Fin cfg1.N) (y : S1x192.Idx) :
    (iblk1 V c 7 t : Vec Ideal S1x192 .f32) y = (V c main_v50 : S1x192.Idx → EReal) y := by
  have e0 : win1_7.index t (0 : Fin 2) = 0 := ((idx_facts t).2.2.2.2.2.2.2.1).1
  have e1 : win1_7.index t (1 : Fin 2) = 0 := ((idx_facts t).2.2.2.2.2.2.2.1).2
  unfold iblk1
  rw [View.read_apply]
  show V c main_v50 _ = V c main_v50 _
  congr 1
  funext a
  apply Fin.ext
  match a with
  | ⟨0, _⟩ => show win1_7.index t 0 * 1 + 1 * (y 0).val = (y 0).val; rw [e0]; omega
  | ⟨1, _⟩ => show win1_7.index t 1 * 192 + 1 * (y 1).val = (y 1).val; rw [e1]; omega

/-- What point `t` writes back is block `t` of every node's gated update, of the arrays the call found: the body's
    entry `(p, q)` is the update of row `p` of its node blocks, which are rows `5000 t + p` of the node arrays. -/
theorem flushed_eq (c : Dev nD) (t : Fin cfg1.N) :
    (dat1 (F := Ideal) V c).flushed 8 t
      = ((cfg1.win 8).blk t).view.read (Elt Ideal)
          (Cert.GcnGru.gruAllK (V c main_arg0) (V c main_v45) (V c main_arg3) (V c main_v48) (V c main_v46) (V c main_v47)
            (V c main_v49) (V c main_v50)) := by
  show (cfg1.win 8).cut (grid1.coords t) ((dat1 V c).after 8 t) = _
  rw [after1_8]
  have e0 : win1_8.index t (0 : Fin 2) = t.val := ((idx_facts t).2.2.2.2.2.2.2.2).1
  have e1 : win1_8.index t (1 : Fin 2) = 0 := ((idx_facts t).2.2.2.2.2.2.2.2).2
  funext j
  obtain ⟨p, q, rfl⟩ : ∃ (p : Fin 5000) (q : Fin 64), j = ix2 p q := ⟨j 0, j 1, eq_ix2 j⟩
  rw [View.read_apply]
  show out1_8 (iblk1 V c 0 t) (iblk1 V c 1 t) (iblk1 V c 2 t) (iblk1 V c 3 t) (iblk1 V c 4 t) (iblk1 V c 5 t) (iblk1 V c 6 t)
      (iblk1 V c 7 t) (ix2 p q) = _
  refine (block_apply _ _ _ _ _ _ _ _ p q).trans ?_
  have hrow : ((((cfg1.win 8).blk t).view.emb (ix2 p q)) 0).val = 5000 * t.val + p.val := by
    show win1_8.index t 0 * 5000 + 1 * p.val = 5000 * t.val + p.val
    rw [e0]; omega
  have hcol : (((cfg1.win 8).blk t).view.emb (ix2 p q)) 1 = q := Fin.ext (by
    show win1_8.index t 1 * 64 + 1 * q.val = q.val
    rw [e1]; omega)
  unfold Cert.GcnGru.gruAllK
  rw [hcol]
  congr 1
  · funext k; exact xblk_apply V c t (ix2 p k) _ hrow rfl
  · funext k; exact ablk_apply V c t (ix2 p k) _ hrow rfl
  · funext k; exact hblk_apply V c t (ix2 p k) _ hrow rfl
  · funext k; exact bblk_apply V c t (ix2 (0 : Fin 1) k)
  · funext k cc; exact wihblk_apply V c t (ix2 k cc)
  · funext k cc; exact whhblk_apply V c t (ix2 k cc)
  · funext cc; exact bihblk_apply V c t (ix2 (0 : Fin 1) cc)
  · funext cc; exact bhhblk_apply V c t (ix2 (0 : Fin 1) cc)

/-- An entry of the result array lies in point `t`'s block iff each coordinate is in the block's range. -/
theorem mem_blk (t : Fin cfg1.N) (i : S100000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v51).slice (win1_8.rect t)).set ↔ _
  rw [View.set_slice_whole, Rect.mem_set_unit]
  exact Iff.rfl

/-- Every entry of the result array is in the block of the point its row falls to: row `r` is written at point `r / 5000`. -/
theorem cover (i : S100000x64.Idx) :
    ∃ t : Fin cfg1.N, (cfg1.win 8).flush t = true ∧ i ∈ ((cfg1.win 8).blk t).view.set := by
  have h0 : (i 0).val < 100000 := (i 0).isLt
  have h1 : (i 1).val < 64 := (i 1).isLt
  have hN : cfg1.N = 20 := N_1
  let t : Fin cfg1.N := ⟨(i 0).val / 5000, by rw [hN]; omega⟩
  have e0 : win1_8.index t (0 : Fin 2) = t.val := ((idx_facts t).2.2.2.2.2.2.2.2).1
  have e1 : win1_8.index t (1 : Fin 2) = 0 := ((idx_facts t).2.2.2.2.2.2.2.2).2
  refine ⟨t, flush1_8 t, ?_⟩
  rw [mem_blk]
  have ht : t.val = (i 0).val / 5000 := rfl
  intro a
  match a with
  | ⟨0, _⟩ => show win1_8.index t 0 * 5000 ≤ (i 0).val ∧ (i 0).val < win1_8.index t 0 * 5000 + 5000; rw [e0, ht]; omega
  | ⟨1, _⟩ => show win1_8.index t 1 * 64 ≤ (i 1).val ∧ (i 1).val < win1_8.index t 1 * 64 + 64; rw [e1]; omega

/-- After the second call its output array holds every node's gated update, of the arrays it found. -/
theorem final1 (c : Dev nD) :
    (dat1 (F := Ideal) V c).arrAt 8 cfg1.N
      = Cert.GcnGru.gruAllK (V c main_arg0) (V c main_v45) (V c main_arg3) (V c main_v48) (V c main_v46) (V c main_v47)
          (V c main_v49) (V c main_v50) :=
  (dat1 (F := Ideal) V c).arrAt_eq_of_cover 8 _ (fun t _ => flushed_eq V c t) cover

end Cert.KernelIdeal.Region1

end
-- ==== Proof.Hosts.lean ====
import proofs.«179903_j77197742178345_1_alg».proof.Proof.Gen.KernelIdeal.Frame
import proofs.«179903_j77197742178345_1_alg».proof.Proof.Spec
import proofs.«179903_j77197742178345_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hosts

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.StableHlo
variable (m : (ℓ : Loc nD τ sig) → Buf (Elt Ideal) ℓ) (ρ : Dev nD → PrngReg)

/-! ## The pieces of the aggregation, each a pure function of the edge list and the edge weights -/

/-- Row `0` of the two-row edge list, read as a vector over the edges: the node each edge leaves. -/
def srcK (ei : IVec S2x1000000 32) : IVec S1000000 32 :=
  shapeCast _ (extractStridedSlice S1x1000000 ![0, 0] ei slices_S2x1000000_S1x1000000_0_0) shapeCasts_S1x1000000_S1000000
/-- Row `1` of the edge list, read the same way: the node each edge enters. -/
def dstK (ei : IVec S2x1000000 32) : IVec S1000000 32 :=
  shapeCast _ (extractStridedSlice S1x1000000 ![1, 0] ei slices_S2x1000000_S1x1000000_1_0) shapeCasts_S1x1000000_S1000000

/-- The degree of each node: one (its self loop) plus the weights of the edges entering it, `deg v = 1 + ∑_{e : dst e = v} w e`. -/
def degK (ei : IVec S2x1000000 32) (ew : FVec Ideal S1000000 .f32) : FVec Ideal S100000 .f32 :=
  addf
    (Host.scatterAdd (F := Ideal) scatter_S100000_S1000000x1_S1000000_n_0_0_1
      (broadcastInDim S100000 ![] bcast_S_S100000 (constant (F := Ideal) S_ .f32 0x00000000#32))
      (broadcastInDim S1000000x1 ![0] bcast_S1000000_S1000000x1_0 (dstK ei))
      ew)
    (broadcastInDim S100000 ![] bcast_S_S100000 (constant (F := Ideal) S_ .f32 0x3F800000#32))

/-- `deg ^ (-1/2)`, node by node. -/
def dinvK (ei : IVec S2x1000000 32) (ew : FVec Ideal S1000000 .f32) : FVec Ideal S100000 .f32 :=
  Host.rsqrt (F := Ideal) (degK ei ew)

/-- A node number made a row number the way an indexing expression does: a negative one counts from the end,
    `v < 0 ? v + 100000 : v`; then set as a one-column matrix of indices. -/
def rowK (v : IVec S1000000 32) : IVec S1000000x1 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)

/-- The symmetric normalisation of an edge: `coef e = w e * deg(src e)^(-1/2) * deg(dst e)^(-1/2)`. -/
def coefK (ei : IVec S2x1000000 32) (ew : FVec Ideal S1000000 .f32) : FVec Ideal S1000000 .f32 :=
  mulf
    (mulf ew (Host.gather gather_S100000_S1000000x1_S1000000_n_0_n_n_0_1_1 (dinvK ei ew) (rowK (srcK ei))))
    (Host.gather gather_S100000_S1000000x1_S1000000_n_0_n_n_0_1_1 (dinvK ei ew) (rowK (dstK ei)))

/-- The host operations between the two calls, as ONE function of the projected features `xw`, the edge list and the edge
    weights: the degree-normalised weighted sum of the neighbours' projected rows plus the node's own row over its degree.
    Both programs run these same operations; they are never opened. -/
def midK (xw : FVec Ideal S100000x64 .f32) (ei : IVec S2x1000000 32) (ew : FVec Ideal S1000000 .f32) :
    FVec Ideal S100000x64 .f32 :=
  addf
    (Host.scatterAdd (F := Ideal) scatter_S100000x64_S1000000x1_S1000000x64_1_0_0_1
      (broadcastInDim S100000x64 ![] bcast_S_S100000x64 (constant (F := Ideal) S_ .f32 0x00000000#32))
      (broadcastInDim S1000000x1 ![0] bcast_S1000000_S1000000x1_0 (dstK ei))
      (mulf
        (broadcastInDim S1000000x64 ![0, 1] bcast_S1000000x1_S1000000x64_0_1
          (broadcastInDim S1000000x1 ![0] bcast_S1000000_S1000000x1_0 (coefK ei ew)))
        (Host.gather gather_S100000x64_S1000000x1_S1000000x64_1_0_n_n_0_1_164 xw (rowK (srcK ei)))))
    (mulf xw
      (broadcastInDim S100000x64 ![0, 1] bcast_S100000x1_S100000x64_0_1
        (broadcastInDim S100000x1 ![0] bcast_S100000_S100000x1_0
          (Host.divf (F := Ideal) (broadcastInDim S100000 ![] bcast_S_S100000 (constant (F := Ideal) S_ .f32 0x3F800000#32))
            (degK ei ew)))))

/-! ## What the first stretch leaves, and that the first call keeps it

The first stretch computes, from the edge list and the weights alone, the two index vectors, the degrees and their inverse
square roots, and writes nothing else. The first call's arrays are its two operands and its output, so each of these
buffers, and every argument, holds after the call what it held before it. -/

/-- The twelve buffers the first stretch writes, in program order. -/
private abbrev wr0 : List (Ref sig .tc) :=
  [main_v0, main_v1, main_v2, main_v3, main_cst, main_v4, main_v5, main_v6, main_cst_0, main_v7, main_v8, main_v9]

/-- Each operation of the first stretch writes its one result buffer, which is on that list. -/
private theorem hostOps0_writes :
    (hostOps0 (F := Ideal)).Forall fun op => op.writes ⊆ (wr0.map (Proc.devRef (τ := τ) .tc)).toFinset := by
  simp only [hostOps0, List.Forall, nullary_writes, unary_writes, binary_writes, ternary_writes, reshape_writes,
    Finset.singleton_subset_iff, List.mem_toFinset]
  repeat' apply And.intro
  all_goals exact List.mem_map_of_mem (by decide)

/-- A buffer off that list holds after the first stretch what the launch memory holds. -/
private theorem W1_keeps (c : Dev nD) (a : Ref sig .tc) (ha : a ∉ wr0) :
    W1 m ρ c (Proc.devRef .tc a) = m ((c : Thread nD τ).loc a) :=
  StableHlo.after_of_writes_sub hostOps0 (W0 m ρ c) hostOps0_writes ha

/-- If it is moreover none of the first call's three arrays, it still does after the call. -/
private theorem W2_keeps (c : Dev nD) (a : Ref sig .tc) (hw : ∀ w, Pipeline.arrRef spec0 w ≠ a) (ha : a ∉ wr0) :
    W2 m ρ c (Proc.devRef .tc a) = m ((c : Thread nD τ).loc a) :=
  (W2_of_ne m ρ c a hw).trans (W1_keeps m ρ c a ha)

/-- At a buffer the first stretch does write, its contents are the operations' composed term over the edge list and the
    weights: the edges' source nodes, -/
private theorem W1_v1 (c : Dev nD) :
    W1 m ρ c (Proc.devRef .tc main_v1) = srcK (m ((c : Thread nD τ).loc main_arg1)) := by
  show StableHlo.after hostOps0 (W0 m ρ c) (Proc.devRef .tc main_v1) = _
  unfold hostOps0
  after_results
  rfl
/-- their target nodes, -/
private theorem W1_v3 (c : Dev nD) :
    W1 m ρ c (Proc.devRef .tc main_v3) = dstK (m ((c : Thread nD τ).loc main_arg1)) := by
  show StableHlo.after hostOps0 (W0 m ρ c) (Proc.devRef .tc main_v3) = _
  unfold hostOps0
  after_results
  rfl
/-- the degrees, -/
private theorem W1_v8 (c : Dev nD) :
    W1 m ρ c (Proc.devRef .tc main_v8)
      = degK (m ((c : Thread nD τ).loc main_arg1)) (m ((c : Thread nD τ).loc main_arg2)) := by
  show StableHlo.after hostOps0 (W0 m ρ c) (Proc.devRef .tc main_v8) = _
  unfold hostOps0
  after_results
  rfl
/-- and their inverse square roots. -/
private theorem W1_v9 (c : Dev nD) :
    W1 m ρ c (Proc.devRef .tc main_v9)
      = dinvK (m ((c : Thread nD τ).loc main_arg1)) (m ((c : Thread nD τ).loc main_arg2)) := by
  show StableHlo.after hostOps0 (W0 m ρ c) (Proc.devRef .tc main_v9) = _
  unfold hostOps0
  after_results
  rfl

/-! ## Before the first call: its two operands are arguments, which the first host stretch does not write -/

theorem V1_arg0 (c : Dev nD) : V1 m ρ c main_arg0 = (m ((c : Thread nD τ).loc main_arg0)) :=
  W1_keeps m ρ c main_arg0 (by decide)
theorem V1_arg4 (c : Dev nD) : V1 m ρ c main_arg4 = (m ((c : Thread nD τ).loc main_arg4)) :=
  W1_keeps m ρ c main_arg4 (by decide)

/-! ## Before the second call: what each of its operands holds -/

/-- The node features are the first call's first array, an input: the call leaves it as it found it, and so does the
    second stretch, which writes none of the arguments. -/
theorem V3_arg0 (c : Dev nD) : V3 m ρ c main_arg0 = (m ((c : Thread nD τ).loc main_arg0)) := by
  show StableHlo.after hostOps1 (W2 m ρ c) (Proc.devRef .tc main_arg0) = _
  unfold hostOps1
  after_results_simp
  exact (W2_arr m ρ c 0).trans
    (((dat0 (V1 m ρ) c).arrAt_in 0 rfl _).trans ((A_eq0 (V1 m ρ) c 0).trans (V1_arg0 m ρ c)))
theorem V3_arg3 (c : Dev nD) : V3 m ρ c main_arg3 = (m ((c : Thread nD τ).loc main_arg3)) := by
  show StableHlo.after hostOps1 (W2 m ρ c) (Proc.devRef .tc main_arg3) = _
  unfold hostOps1
  after_results_simp
  exact W2_keeps m ρ c main_arg3 (by decide) (by decide)
/-- The aggregated messages are `midK` of what the first call left in its output array. -/
theorem V3_v45 (c : Dev nD) :
    V3 m ρ c main_v45 = midK (W2 m ρ c (Proc.devRef .tc main_v10)) (m ((c : Thread nD τ).loc main_arg1)) (m ((c : Thread nD τ).loc main_arg2)) := by
  show StableHlo.after hostOps1 (W2 m ρ c) (Proc.devRef .tc main_v45) = _
  unfold hostOps1
  -- the second stretch's composed term, over what the first call's exit holds at the buffers the stretch only reads
  after_results_simp
  -- of which all but the call's output are the first stretch's results, untouched by the call
  rw [W2_of_ne m ρ c main_v1 (by decide), W1_v1, W2_of_ne m ρ c main_v3 (by decide), W1_v3,
    W2_of_ne m ρ c main_v8 (by decide), W1_v8, W2_of_ne m ρ c main_v9 (by decide), W1_v9,
    W2_keeps m ρ c main_arg2 (by decide) (by decide)]
  rfl
theorem V3_v46 (c : Dev nD) :
    V3 m ρ c main_v46 = transpose S128x192 [1, 0] (m ((c : Thread nD τ).loc main_arg6)) transposes_S192x128_S128x192_1_0 := by
  show StableHlo.after hostOps1 (W2 m ρ c) (Proc.devRef .tc main_v46) = _
  unfold hostOps1
  after_results_simp
  rw [W2_keeps m ρ c main_arg6 (by decide) (by decide)]
theorem V3_v47 (c : Dev nD) :
    V3 m ρ c main_v47 = transpose S64x192 [1, 0] (m ((c : Thread nD τ).loc main_arg7)) transposes_S192x64_S64x192_1_0 := by
  show StableHlo.after hostOps1 (W2 m ρ c) (Proc.devRef .tc main_v47) = _
  unfold hostOps1
  after_results_simp
  rw [W2_keeps m ρ c main_arg7 (by decide) (by decide)]
theorem V3_v48 (c : Dev nD) : V3 m ρ c main_v48 = shapeCast S1x64 (m ((c : Thread nD τ).loc main_arg5)) shapeCasts_S64_S1x64 := by
  show StableHlo.after hostOps1 (W2 m ρ c) (Proc.devRef .tc main_v48) = _
  unfold hostOps1
  after_results_simp
  rw [W2_keeps m ρ c main_arg5 (by decide) (by decide)]
  rfl
theorem V3_v49 (c : Dev nD) : V3 m ρ c main_v49 = shapeCast S1x192 (m ((c : Thread nD τ).loc main_arg8)) shapeCasts_S192_S1x192 := by
  show StableHlo.after hostOps1 (W2 m ρ c) (Proc.devRef .tc main_v49) = _
  unfold hostOps1
  after_results_simp
  rw [W2_keeps m ρ c main_arg8 (by decide) (by decide)]
  rfl
theorem V3_v50 (c : Dev nD) : V3 m ρ c main_v50 = shapeCast S1x192 (m ((c : Thread nD τ).loc main_arg9)) shapeCasts_S192_S1x192 := by
  show StableHlo.after hostOps1 (W2 m ρ c) (Proc.devRef .tc main_v50) = _
  unfold hostOps1
  after_results_simp
  rw [W2_keeps m ρ c main_arg9 (by decide) (by decide)]
  rfl

/-! ## The reference runs the same operations on its own product -/

/-- The reference's aggregated messages are `midK` of its projected features. -/
theorem ref_mid (x0 : FVec Ideal S100000x64 .f32) (x1 : IVec S2x1000000 32) (x2 : FVec Ideal S1000000 .f32)
    (x4 : FVec Ideal S64x64 .f32) :
    Cert.ReferenceIdeal.Read.val_main_v45 (F := Ideal) x0 x1 x2 x4
      = midK (Cert.ReferenceIdeal.Read.val_main_v10 (F := Ideal) x0 x4) x1 x2 := by
  rfl

end Cert.KernelIdeal.Hosts

end
-- ==== Proof.KernelValue.lean ====
import proofs.«179903_j77197742178345_1_alg».proof.Proof.Gen.KernelIdeal.Frame
import proofs.«179903_j77197742178345_1_alg».proof.Proof.Spec
import proofs.«179903_j77197742178345_1_alg».proof.Proof.KernelRun
import proofs.«179903_j77197742178345_1_alg».proof.Proof.Region0
import proofs.«179903_j77197742178345_1_alg».proof.Proof.Region1
import proofs.«179903_j77197742178345_1_alg».proof.Proof.Hosts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- What the idealized kernel returns, as one function of its arguments: every node's gated update, of the features, of
    the host stretch's aggregation of the projected features `x·W`, of the old state, and of the weights. -/
def result (c : Dev nD) : FVec Ideal S100000x64 .f32 :=
  Cert.GcnGru.gruAll (m ((c : Thread nD τ).loc main_arg0))
    (Hosts.midK (Cert.GcnGru.proj (m ((c : Thread nD τ).loc main_arg0)) (m ((c : Thread nD τ).loc main_arg4))) (m ((c : Thread nD τ).loc main_arg1)) (m ((c : Thread nD τ).loc main_arg2)))
    (m ((c : Thread nD τ).loc main_arg3)) (m ((c : Thread nD τ).loc main_arg5))
    (transpose S128x192 [1, 0] (m ((c : Thread nD τ).loc main_arg6)) transposes_S192x128_S128x192_1_0)
    (transpose S64x192 [1, 0] (m ((c : Thread nD τ).loc main_arg7)) transposes_S192x64_S64x192_1_0)
    (m ((c : Thread nD τ).loc main_arg8)) (m ((c : Thread nD τ).loc main_arg9))

/-- A bias vector recast as a one-row matrix is read, in its one row, as the vector: the gated update with the three
    biases so recast is the gated update of the vectors. -/
theorem gruAllK_rows (x agg h : FVec Ideal S100000x64 .f32) (b : FVec Ideal S64 .f32) (wihT : FVec Ideal S128x192 .f32)
    (whhT : FVec Ideal S64x192 .f32) (bih bhh : FVec Ideal S192 .f32) :
    Cert.GcnGru.gruAllK x agg h (shapeCast S1x64 b shapeCasts_S64_S1x64) wihT whhT
        (shapeCast S1x192 bih shapeCasts_S192_S1x192) (shapeCast S1x192 bhh shapeCasts_S192_S1x192)
      = Cert.GcnGru.gruAll x agg h b wihT whhT bih bhh := by
  funext i
  unfold Cert.GcnGru.gruAllK Cert.GcnGru.gruAll
  simp only [shapeCast_a_1a_apply]

/-- The result array at the last boundary is `result`: the second call's array by its whole-array form, each of its
    operands by what the second host stretch left there, the first call's array by its whole-array form. -/
theorem W4_result (c : Dev nD) : W4 m ρ c (Proc.devRef .tc main_v51) = result m c := by
  have h8 : W4 m ρ c (Proc.devRef .tc main_v51) = (dat1 (F := Ideal) (V3 m ρ) c).arrAt 8 cfg1.N := W4_arr m ρ c 8
  have h2 : W2 m ρ c (Proc.devRef .tc main_v10) = (dat0 (F := Ideal) (V1 m ρ) c).arrAt 2 cfg0.N := W2_arr m ρ c 2
  rw [h8, Region1.final1 (V3 m ρ) c, Hosts.V3_arg0, Hosts.V3_v45, Hosts.V3_arg3, Hosts.V3_v48, Hosts.V3_v46, Hosts.V3_v47,
    Hosts.V3_v49, Hosts.V3_v50, h2, Region0.final0 (V1 m ρ) c, Hosts.V1_arg0, Hosts.V1_arg4, gruAllK_rows]
  rfl

/-- The idealized kernel's run with its result named: every weakly fair execution terminates with the result array at
    `result` of the arguments, the arguments unchanged. -/
theorem run : θ_run defs (onTc (τ := τ) (main (F := Ideal))) ⟨m, fun _ => 0, ρ⟩ (fun r => ∀ c : Dev nD,
      r.2.mem ((c.tc : Thread nD τ).loc main_v51) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (W4_result m ρ c), (h c).2⟩)
    (Cert.KernelIdeal.RunNamed.run_named (F := Ideal) m ρ)

end Cert.KernelIdeal.KVal

end
-- ==== Proof.RefVal.lean ====
import proofs.«179903_j77197742178345_1_alg».proof.Proof.Gen.ReferenceIdeal.Read
import proofs.«179903_j77197742178345_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Cert.ReferenceIdeal Cert.ReferenceIdeal.Read
open Idealize.ShloMosaic Idealize.ShloMosaic.TcCoe Idealize.ShloMosaic.ValueIdx Idealize.SL.Sem

/-!
  The reference read entry by entry.

  Every stage after the aggregated messages acts on one row of the node arrays at a time: the bias is broadcast along
  the rows, the logistic function, the hyperbolic tangent, sums and products act entry by entry, the two matrix
  products contract a row against a column of the transposed weights, the concatenation joins two rows of 64 into one
  of 128, and the six slices pick the column blocks `j`, `64 + j`, `128 + j` of the 192-column gate vectors. Reading
  the stages at an index `(n, j)` in program order therefore rebuilds, term for term, the scalar function `gruRow` of
  row `n` of the features, of the aggregated messages and of the old state, at column `j`. The logistic function
  appears three times as the quotient `1 / (1 + e^(−t))` with `1` the float pattern of one, which is `sig t` as it
  stands. The aggregated messages themselves stay a closed stage throughout.
-/

section Stages

variable (x0 : FVec Ideal S100000x64 .f32) (x1 : IVec S2x1000000 32) (x2 : FVec Ideal S1000000 .f32)
  (x3 : FVec Ideal S100000x64 .f32) (x4 : FVec Ideal S64x64 .f32) (x5 : FVec Ideal S64 .f32)
  (x6 : FVec Ideal S192x128 .f32) (x7 : FVec Ideal S192x64 .f32) (x8 x9 : FVec Ideal S192 .f32)

/-! ### The constant one

Seven stages broadcast the scalar constant `1.0` over the node array; each holds the float pattern of one at every
index. -/

private theorem one_v51 (i : S100000x64.Idx) : val_main_v51 (F := Ideal) i = Cert.GcnGru.one := by
  rw [val_main_v51_apply, val_main_cst_8_apply]; rfl
private theorem one_v53 (i : S100000x64.Idx) : val_main_v53 (F := Ideal) i = Cert.GcnGru.one := by
  rw [val_main_v53_apply, val_main_cst_9_apply]; rfl
private theorem one_v75 (i : S100000x64.Idx) : val_main_v75 (F := Ideal) i = Cert.GcnGru.one := by
  rw [val_main_v75_apply, val_main_cst_10_apply]; rfl
private theorem one_v77 (i : S100000x64.Idx) : val_main_v77 (F := Ideal) i = Cert.GcnGru.one := by
  rw [val_main_v77_apply, val_main_cst_11_apply]; rfl
private theorem one_v82 (i : S100000x64.Idx) : val_main_v82 (F := Ideal) i = Cert.GcnGru.one := by
  rw [val_main_v82_apply, val_main_cst_12_apply]; rfl
private theorem one_v84 (i : S100000x64.Idx) : val_main_v84 (F := Ideal) i = Cert.GcnGru.one := by
  rw [val_main_v84_apply, val_main_cst_13_apply]; rfl
private theorem one_v89 (i : S100000x64.Idx) : val_main_v89 (F := Ideal) i = Cert.GcnGru.one := by
  rw [val_main_v89_apply, val_main_cst_14_apply]; rfl

/-! ### The gated message and the joined row -/

/-- The gated message at node `n`, column `k`: the logistic function of the aggregated message plus the bias, the
    bias read at column `k` whatever the node (it is broadcast along the rows). -/
private theorem gate_at (n : Fin 100000) (k : Fin 64) :
    val_main_v54 (F := Ideal) x0 x1 x2 x4 x5 (ix2 n k)
      = Cert.GcnGru.sig (val_main_v45 (F := Ideal) x0 x1 x2 x4 (ix2 n k) + x5 (ix1 k)) := by
  have hb : idx_main_v46 (idx_main_v47 (ix2 n k)) = ix1 k := funext fun a => match a with | ⟨0, _⟩ => rfl
  rw [val_main_v54_apply, val_main_v52_apply, val_main_v50_apply, val_main_v49_apply, val_main_v48_apply,
    val_main_v47_apply, val_main_v46_apply, one_v51, one_v53, hb]
  simp only [Ideal.hostDivf_def, Ideal.addf_def, Ideal.hostUnary_exp_def, Ideal.hostNegf_def, Ideal.negf_def,
    Cert.GcnGru.sig]

/-- The joined input row of node `n` at position `k` of 128: the feature `x` for the first 64 positions, the gated
    message at position `k − 64` for the last 64. The concatenation along the columns picks its piece by comparing
    the column with the first piece's width, which is the case split of `catRow`. -/
private theorem cat_at (n : Fin 100000) (k : Fin 128) :
    val_main_v55 (F := Ideal) x0 x1 x2 x4 x5 (ix2 n k)
      = Cert.GcnGru.catRow (fun k => x0 (ix2 n k))
          (fun k => Cert.GcnGru.sig (val_main_v45 (F := Ideal) x0 x1 x2 x4 (ix2 n k) + x5 (ix1 k))) k := by
  unfold val_main_v55 Cert.GcnGru.catRow
  by_cases hk : k.val < 64
  · -- a column below 64 lies in the first piece, at the same coordinates
    rw [dif_pos hk]
    exact concatenate_pair_apply_left 1 x0 _ Gen.concatenates_S100000x64_S100000x64_S100000x128_d1 (ix2 n k) rfl
      (ix2 n ⟨k.val, hk⟩) (fun b => match b with | ⟨0, _⟩ => rfl | ⟨1, _⟩ => rfl)
  · -- a column from 64 on lies in the second piece, 64 columns to the left
    have hk' : k.val - 64 < 64 := by have := k.isLt; omega
    rw [dif_neg hk]
    exact (concatenate_pair_apply_right 1 x0 _ Gen.concatenates_S100000x64_S100000x64_S100000x128_d1 (ix2 n k) rfl rfl
      (ix2 n ⟨k.val - 64, hk'⟩)
      (fun b hb => match b, hb with | ⟨0, _⟩, _ => rfl | ⟨1, _⟩, hb => absurd rfl hb)
      (by show (k.val - 64) + 64 = k.val; omega)).trans (gate_at x0 x1 x2 x4 x5 n ⟨k.val - 64, hk'⟩)

/-! ### The two gate vectors -/

/-- The input-side gate vector of node `n` at column `c`: the joined row against column `c` of the transposed input
    weights, plus the input bias at `c`. -/
private theorem gi_at (n : Fin 100000) (c : Fin 192) :
    val_main_v60 (F := Ideal) x0 x1 x2 x4 x5 x6 x8 (ix2 n c)
      = Cert.GcnGru.gateI (fun k => x0 (ix2 n k)) (fun k => val_main_v45 (F := Ideal) x0 x1 x2 x4 (ix2 n k))
          (fun k => x5 (ix1 k)) (fun k c => val_main_v56 (F := Ideal) x6 (ix2 k c)) (fun c => x8 (ix1 c)) c := by
  have hb : idx_main_v58 (idx_main_v59 (ix2 n c)) = ix1 c := funext fun a => match a with | ⟨0, _⟩ => rfl
  have hl : ∀ k : Fin 128, lidx_main_v57 (ix2 n c) k = ix2 n k := fun k =>
    funext fun a => Fin.ext (by match a with | ⟨0, _⟩ => rfl | ⟨1, _⟩ => rfl)
  have hr : ∀ k : Fin 128, ridx_main_v57 (ix2 n c) k = ix2 k c := fun k =>
    funext fun a => Fin.ext (by match a with | ⟨0, _⟩ => rfl | ⟨1, _⟩ => rfl)
  rw [val_main_v60_apply, val_main_v57_apply, val_main_v59_apply, val_main_v58_apply, hb]
  unfold Cert.GcnGru.gateI
  rw [Ideal.addf_def]
  congr 1
  refine Finset.sum_congr rfl fun k _ => ?_
  rw [hl, hr, cat_at]

/-- The state-side gate vector of node `n` at column `c`: the old state's row against column `c` of the transposed
    state weights, plus the state bias at `c`. -/
private theorem gh_at (n : Fin 100000) (c : Fin 192) :
    val_main_v65 (F := Ideal) x3 x7 x9 (ix2 n c)
      = Cert.GcnGru.gateH (fun k => x3 (ix2 n k)) (fun k c => val_main_v61 (F := Ideal) x7 (ix2 k c))
          (fun c => x9 (ix1 c)) c := by
  have hb : idx_main_v63 (idx_main_v64 (ix2 n c)) = ix1 c := funext fun a => match a with | ⟨0, _⟩ => rfl
  have hl : ∀ k : Fin 64, lidx_main_v62 (ix2 n c) k = ix2 n k := fun k =>
    funext fun a => Fin.ext (by match a with | ⟨0, _⟩ => rfl | ⟨1, _⟩ => rfl)
  have hr : ∀ k : Fin 64, ridx_main_v62 (ix2 n c) k = ix2 k c := fun k =>
    funext fun a => Fin.ext (by match a with | ⟨0, _⟩ => rfl | ⟨1, _⟩ => rfl)
  rw [val_main_v65_apply, val_main_v62_apply, val_main_v64_apply, val_main_v63_apply, hb]
  unfold Cert.GcnGru.gateH
  rw [Ideal.addf_def]
  congr 1
  refine Finset.sum_congr rfl fun k _ => ?_
  rw [hl, hr]

/-! ### The three column blocks and the gates -/

/-- The slices of the 192-column gate vectors at node `n`, column `j`, read the reset block at column `j`, the update
    block at `64 + j` and the candidate block at `128 + j`. -/
private theorem col0_i (n : Fin 100000) (j : Fin 64) : idx_main_v66 (ix2 n j) = ix2 n (Cert.GcnGru.c0 j) :=
  funext fun a => Fin.ext (by match a with | ⟨0, _⟩ => rfl | ⟨1, _⟩ => rfl)
private theorem col1_i (n : Fin 100000) (j : Fin 64) : idx_main_v67 (ix2 n j) = ix2 n (Cert.GcnGru.c1 j) :=
  funext fun a => Fin.ext (by match a with | ⟨0, _⟩ => rfl | ⟨1, _⟩ => rfl)
private theorem col2_i (n : Fin 100000) (j : Fin 64) : idx_main_v68 (ix2 n j) = ix2 n (Cert.GcnGru.c2 j) :=
  funext fun a => Fin.ext (by match a with | ⟨0, _⟩ => rfl | ⟨1, _⟩ => rfl)
private theorem col0_h (n : Fin 100000) (j : Fin 64) : idx_main_v69 (ix2 n j) = ix2 n (Cert.GcnGru.c0 j) :=
  funext fun a => Fin.ext (by match a with | ⟨0, _⟩ => rfl | ⟨1, _⟩ => rfl)
private theorem col1_h (n : Fin 100000) (j : Fin 64) : idx_main_v70 (ix2 n j) = ix2 n (Cert.GcnGru.c1 j) :=
  funext fun a => Fin.ext (by match a with | ⟨0, _⟩ => rfl | ⟨1, _⟩ => rfl)
private theorem col2_h (n : Fin 100000) (j : Fin 64) : idx_main_v71 (ix2 n j) = ix2 n (Cert.GcnGru.c2 j) :=
  funext fun a => Fin.ext (by match a with | ⟨0, _⟩ => rfl | ⟨1, _⟩ => rfl)

/-- The reset gate at node `n`, column `j`: the logistic function of the sum of the two gate vectors' reset
    entries. -/
private theorem reset_at (n : Fin 100000) (j : Fin 64) :
    val_main_v78 (F := Ideal) x0 x1 x2 x3 x4 x5 x6 x7 x8 x9 (ix2 n j)
      = Cert.GcnGru.sig (val_main_v60 (F := Ideal) x0 x1 x2 x4 x5 x6 x8 (ix2 n (Cert.GcnGru.c0 j))
          + val_main_v65 (F := Ideal) x3 x7 x9 (ix2 n (Cert.GcnGru.c0 j))) := by
  rw [val_main_v78_apply, val_main_v76_apply, val_main_v74_apply, val_main_v73_apply, val_main_v72_apply,
    val_main_v66_apply, val_main_v69_apply, one_v75, one_v77, col0_i, col0_h]
  simp only [Ideal.hostDivf_def, Ideal.addf_def, Ideal.hostUnary_exp_def, Ideal.hostNegf_def, Ideal.negf_def,
    Cert.GcnGru.sig]

/-- The update gate at node `n`, column `j`: the logistic function of the sum of the two gate vectors' update
    entries. -/
private theorem update_at (n : Fin 100000) (j : Fin 64) :
    val_main_v85 (F := Ideal) x0 x1 x2 x3 x4 x5 x6 x7 x8 x9 (ix2 n j)
      = Cert.GcnGru.sig (val_main_v60 (F := Ideal) x0 x1 x2 x4 x5 x6 x8 (ix2 n (Cert.GcnGru.c1 j))
          + val_main_v65 (F := Ideal) x3 x7 x9 (ix2 n (Cert.GcnGru.c1 j))) := by
  rw [val_main_v85_apply, val_main_v83_apply, val_main_v81_apply, val_main_v80_apply, val_main_v79_apply,
    val_main_v67_apply, val_main_v70_apply, one_v82, one_v84, col1_i, col1_h]
  simp only [Ideal.hostDivf_def, Ideal.addf_def, Ideal.hostUnary_exp_def, Ideal.hostNegf_def, Ideal.negf_def,
    Cert.GcnGru.sig]

/-- The candidate state at node `n`, column `j`: the hyperbolic tangent of the input side's candidate entry plus
    the reset gate times the state side's. -/
private theorem cand_at (n : Fin 100000) (j : Fin 64) :
    val_main_v88 (F := Ideal) x0 x1 x2 x3 x4 x5 x6 x7 x8 x9 (ix2 n j)
      = Ideal.tanh (val_main_v60 (F := Ideal) x0 x1 x2 x4 x5 x6 x8 (ix2 n (Cert.GcnGru.c2 j))
          + Cert.GcnGru.sig (val_main_v60 (F := Ideal) x0 x1 x2 x4 x5 x6 x8 (ix2 n (Cert.GcnGru.c0 j))
              + val_main_v65 (F := Ideal) x3 x7 x9 (ix2 n (Cert.GcnGru.c0 j)))
            * val_main_v65 (F := Ideal) x3 x7 x9 (ix2 n (Cert.GcnGru.c2 j))) := by
  rw [val_main_v88_apply, val_main_v87_apply, val_main_v86_apply, val_main_v68_apply, val_main_v71_apply,
    reset_at, col2_i, col2_h]
  simp only [Ideal.hostUnary_tanh_def, Ideal.addf_def, Ideal.mulf_def]

end Stages

/-- The reference's projected features are the matrix product `x·W`, entry by entry. -/
theorem ref_proj (x0 : FVec Ideal S100000x64 .f32) (x4 : FVec Ideal S64x64 .f32) :
    val_main_v10 (F := Ideal) x0 x4 = Cert.GcnGru.proj x0 x4 := by
  funext i
  -- the contraction reads row `i 0` of `x` against column `i 1` of `W`
  have hl : ∀ k : Fin 64, lidx_main_v10 i k = ix2 (i 0) k := fun k =>
    funext fun a => Fin.ext (by match a with | ⟨0, _⟩ => rfl | ⟨1, _⟩ => rfl)
  have hr : ∀ k : Fin 64, ridx_main_v10 i k = ix2 k (i 1) := fun k =>
    funext fun a => Fin.ext (by match a with | ⟨0, _⟩ => rfl | ⟨1, _⟩ => rfl)
  rw [val_main_v10_apply]
  unfold Cert.GcnGru.proj
  refine Finset.sum_congr rfl fun k _ => ?_
  rw [hl, hr]
  rfl

/-- The reference's result is every node's gated update, of its aggregated messages (the stage `val_main_v45`, left
    unopened) and the arguments, the two weight matrices through the reference's own transposes. -/
theorem ref_value (x0 : FVec Ideal S100000x64 .f32) (x1 : IVec S2x1000000 32) (x2 : FVec Ideal S1000000 .f32)
    (x3 : FVec Ideal S100000x64 .f32) (x4 : FVec Ideal S64x64 .f32) (x5 : FVec Ideal S64 .f32)
    (x6 : FVec Ideal S192x128 .f32) (x7 : FVec Ideal S192x64 .f32) (x8 x9 : FVec Ideal S192 .f32) :
    val_main_v93 (F := Ideal) x0 x1 x2 x3 x4 x5 x6 x7 x8 x9
      = Cert.GcnGru.gruAll x0 (val_main_v45 (F := Ideal) x0 x1 x2 x4) x3 x5 (val_main_v56 (F := Ideal) x6)
          (val_main_v61 (F := Ideal) x7) x8 x9 := by
  funext i
  -- split the index into its node `n` and its column `j`
  obtain ⟨n, j, rfl⟩ : ∃ (n : Fin 100000) (j : Fin 64), i = ix2 n j := ⟨i 0, i 1, eq_ix2 i⟩
  -- the last five stages: `(1 − z)·ñ + z·h`, with `z` the update gate and `ñ` the candidate
  rw [val_main_v93_apply, val_main_v91_apply, val_main_v92_apply, val_main_v90_apply, one_v89, update_at, cand_at]
  -- every entry of the two gate vectors is the row's `gateI` / `gateH`
  simp only [gi_at, gh_at, Ideal.addf_def, Ideal.mulf_def, Ideal.subf_def]
  rfl

end Cert.ReferenceIdeal.RefVal

end
-- ==== Proof.lean ====
/-
  The certificate of a graph-convolution step followed by a gated recurrent update, over 100000 nodes and 1000000 edges.

  Both programs compute, for every node `n` and column `j`,
    `out[n, j] = (1 − z)·tanh(gi₂ + r·gh₂) + z·h[n, j]`,  `r = σ(gi₀ + gh₀)`, `z = σ(gi₁ + gh₁)`,
  where `gi = [x[n], σ(agg[n] + b)]·Wihᵀ + bih`, `gh = h[n]·Whhᵀ + bhh`, and `agg` is the degree-normalised sum of the
  neighbours' rows of `xw = x·W` plus the node's own row over its degree.
  The kernel makes `xw` in a first call, 5000 rows at a time, runs the edge gathers and scatters as host operations, and
  makes `out` in a second call, 5000 rows at a time; the reference does all of it with whole-array host operations.
  On the extended reals the two agree operation by operation: a product accumulated into a zero splat is the host's
  product; a change of float format is the identity; the kernel's logistic operation is the reference's quotient
  `1 / (1 + e^(−t))`; and every operation of the second call acts on a row, so a block of rows of the result depends on the
  same block of rows of its operands. The edge operations are the same on both sides and are carried as one unopened
  function of `xw`. No finiteness of the inputs is used: the two sides are the same expression, not a rearrangement.
-/
import proofs.«179903_j77197742178345_1_alg».proof.Defs
import proofs.«179903_j77197742178345_1_alg».proof.Proof.Gen.Kernel
import proofs.«179903_j77197742178345_1_alg».proof.Proof.Gen.Kernel.Skeleton
import proofs.«179903_j77197742178345_1_alg».proof.Proof.Gen.Kernel.Launch
import proofs.«179903_j77197742178345_1_alg».proof.Proof.Gen.Kernel.Points
import proofs.«179903_j77197742178345_1_alg».proof.Proof.Gen.Kernel.Frame
import proofs.«179903_j77197742178345_1_alg».proof.Proof.Gen.KernelIdeal
import proofs.«179903_j77197742178345_1_alg».proof.Proof.Gen.KernelIdeal.Skeleton
import proofs.«179903_j77197742178345_1_alg».proof.Proof.Gen.KernelIdeal.Launch
import proofs.«179903_j77197742178345_1_alg».proof.Proof.Gen.KernelIdeal.Points
import proofs.«179903_j77197742178345_1_alg».proof.Proof.Gen.KernelIdeal.Frame
import proofs.«179903_j77197742178345_1_alg».proof.Proof.Gen.ReferenceIdeal
import proofs.«179903_j77197742178345_1_alg».proof.Proof.Gen.ReferenceIdeal.Run
import proofs.«179903_j77197742178345_1_alg».proof.Proof.Gen.ReferenceIdeal.Read
import proofs.«179903_j77197742178345_1_alg».proof.Proof.Gen.Pre_finite_inputs
import proofs.«179903_j77197742178345_1_alg».proof.Proof.KernelValue
import proofs.«179903_j77197742178345_1_alg».proof.Proof.RefVal
import Idealize.ShloMosaic.Adequacy
import Idealize.ShloMosaic.Init

noncomputable section

namespace Cert.Proof

open Idealize.ShloMosaic Idealize.ShloMosaic.TcCoe Idealize.SL.Sem

/-- The word-level kernel terminates without a fault and leaves its arguments alone. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- So does the idealized reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The reference's result term is the kernel's `result` of arguments that agree: the reference's stages read as the gated
    update of its aggregated messages, those as the shared host stretch of its product, that product as `x·W`. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v93 (F := Ideal) m' c = Cert.KernelIdeal.KVal.result m c := by
  rw [Cert.ReferenceIdeal.Read.val_main_v93_eq, Cert.ReferenceIdeal.RefVal.ref_value, Cert.KernelIdeal.Hosts.ref_mid,
    Cert.ReferenceIdeal.RefVal.ref_proj, h0, h1, h2, h3, h4, h5, h6, h7, h8, h9]
  rfl

/-- From memories agreeing on the arguments both idealized programs run, and end with equal results. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.KVal.result m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  exact result_eq m m' c h0 h1 h2 h3 h4 h5 h6 h7 h8 h9

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
